-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)) →
    ∃ (v0 : (c : Dev Cert.KernelIdeal.nD) → Buf (Elt Ideal) ((c.tc : Thread Cert.KernelIdeal.nD Cert.KernelIdeal.τ).loc Cert.KernelIdeal.main_v22)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v22) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v38) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x256 : Shape := ⟨2, ![100000, 256]⟩
abbrev S2x1600000 : Shape := ⟨2, ![2, 1600000]⟩
abbrev S1600000 : Shape := ⟨1, ![1600000]⟩
abbrev S256x64 : Shape := ⟨2, ![256, 64]⟩
abbrev S64 : Shape := ⟨1, ![64]⟩
abbrev S64x64 : Shape := ⟨2, ![64, 64]⟩
abbrev S_ : Shape := ⟨0, ![]⟩

class Facts : Prop where
  bcast_S_S100000x256 : S_.BroadcastsInDim S100000x256 (![] : Fin 0 → Fin S100000x256.rank)
  reducesTo_S100000x256_S_d0_1 : S100000x256.ReducesTo [0, 1] S_
  h_S_ : 0 < S_.numel
  bcast_S_S1600000 : S_.BroadcastsInDim S1600000 (![] : Fin 0 → Fin S1600000.rank)
  reducesTo_S1600000_S_d0 : S1600000.ReducesTo [0] S_
  bcast_S_S256x64 : S_.BroadcastsInDim S256x64 (![] : Fin 0 → Fin S256x64.rank)
  reducesTo_S256x64_S_d0_1 : S256x64.ReducesTo [0, 1] S_
  bcast_S_S64 : S_.BroadcastsInDim S64 (![] : Fin 0 → Fin S64.rank)
  reducesTo_S64_S_d0 : S64.ReducesTo [0] S_
  bcast_S_S64x64 : S_.BroadcastsInDim S64x64 (![] : Fin 0 → Fin S64x64.rank)
  reducesTo_S64x64_S_d0_1 : S64x64.ReducesTo [0, 1] S_

variable [Facts]

def fn_part1 {F : FTy → Type} [FloatOps F] (main_arg5 : FVec F S64x64 .f32) (main_arg6 : FVec F S64 .f32) (main_v13 : IVec S_ 1) (main_v16 : IVec S64 1) : IVec S_ 1 :=
  let main_c_5 : IVec S_ 1 := constantI S_ 1 1#1
  let main_v17 : IVec S_ 1 := (fun x v => Host.reduce IntOp.andi x v reducesTo_S64_S_d0 h_S_) main_v16 main_c_5
  let main_v18 : IVec S_ 1 := andi main_v13 main_v17
  let main_v19 : FVec F S64x64 .f32 := Host.absf main_arg5
  let main_cst_6 : FVec F S_ .f32 := constant S_ .f32 0x7F800000#32
  let main_v20 : FVec F S64x64 .f32 := broadcastInDim S64x64 ![] bcast_S_S64x64 main_cst_6
  let main_v21 : IVec S64x64 1 := cmpf .olt main_v19 main_v20
  let main_c_7 : IVec S_ 1 := constantI S_ 1 1#1
  let main_v22 : IVec S_ 1 := (fun x v => Host.reduce IntOp.andi x v reducesTo_S64x64_S_d0_1 h_S_) main_v21 main_c_7
  let main_v23 : IVec S_ 1 := andi main_v18 main_v22
  let main_v24 : FVec F S64 .f32 := Host.absf main_arg6
  let main_cst_8 : FVec F S_ .f32 := constant S_ .f32 0x7F800000#32
  let main_v25 : FVec F S64 .f32 := broadcastInDim S64 ![] bcast_S_S64 main_cst_8
  let main_v26 : IVec S64 1 := cmpf .olt main_v24 main_v25
  let main_c_9 : IVec S_ 1 := constantI S_ 1 1#1
  let main_v27 : IVec S_ 1 := (fun x v => Host.reduce IntOp.andi x v reducesTo_S64_S_d0 h_S_) main_v26 main_c_9
  let main_v28 : IVec S_ 1 := andi main_v23 main_v27
  main_v28

def fn {F : FTy → Type} [FloatOps F] (main_arg0 : FVec F S100000x256 .f32) (main_arg1 : IVec S2x1600000 32) (main_arg2 : FVec F S1600000 .f32) (main_arg3 : FVec F S256x64 .f32) (main_arg4 : FVec F S64 .f32) (main_arg5 : FVec F S64x64 .f32) (main_arg6 : FVec F S64 .f32) : IVec S_ 1 :=
  let main_v0 : FVec F S100000x256 .f32 := Host.absf main_arg0
  let main_cst : FVec F S_ .f32 := constant S_ .f32 0x7F800000#32
  let main_v1 : FVec F S100000x256 .f32 := broadcastInDim S100000x256 ![] bcast_S_S100000x256 main_cst
  let main_v2 : IVec S100000x256 1 := cmpf .olt main_v0 main_v1
  let main_c : IVec S_ 1 := constantI S_ 1 1#1
  let main_v3 : IVec S_ 1 := (fun x v => Host.reduce IntOp.andi x v reducesTo_S100000x256_S_d0_1 h_S_) main_v2 main_c
  let main_v4 : FVec F S1600000 .f32 := Host.absf main_arg2
  let main_cst_0 : FVec F S_ .f32 := constant S_ .f32 0x7F800000#32
  let main_v5 : FVec F S1600000 .f32 := broadcastInDim S1600000 ![] bcast_S_S1600000 main_cst_0
  let main_v6 : IVec S1600000 1 := cmpf .olt main_v4 main_v5
  let main_c_1 : IVec S_ 1 := constantI S_ 1 1#1
  let main_v7 : IVec S_ 1 := (fun x v => Host.reduce IntOp.andi x v reducesTo_S1600000_S_d0 h_S_) main_v6 main_c_1
  let main_v8 : IVec S_ 1 := andi main_v3 main_v7
  let main_v9 : FVec F S256x64 .f32 := Host.absf main_arg3
  let main_cst_2 : FVec F S_ .f32 := constant S_ .f32 0x7F800000#32
  let main_v10 : FVec F S256x64 .f32 := broadcastInDim S256x64 ![] bcast_S_S256x64 main_cst_2
  let main_v11 : IVec S256x64 1 := cmpf .olt main_v9 main_v10
  let main_c_3 : IVec S_ 1 := constantI S_ 1 1#1
  let main_v12 : IVec S_ 1 := (fun x v => Host.reduce IntOp.andi x v reducesTo_S256x64_S_d0_1 h_S_) main_v11 main_c_3
  let main_v13 : IVec S_ 1 := andi main_v8 main_v12
  let main_v14 : FVec F S64 .f32 := Host.absf main_arg4
  let main_cst_4 : FVec F S_ .f32 := constant S_ .f32 0x7F800000#32
  let main_v15 : FVec F S64 .f32 := broadcastInDim S64 ![] bcast_S_S64 main_cst_4
  let main_v16 : IVec S64 1 := cmpf .olt main_v14 main_v15
  fn_part1 (F := F) main_arg5 main_arg6 main_v13 main_v16
-- ==== Kernel.lean ====
abbrev S100000x256 : Shape := ⟨2, ![100000, 256]⟩
abbrev S2x1600000 : Shape := ⟨2, ![2, 1600000]⟩
abbrev S1600000 : Shape := ⟨1, ![1600000]⟩
abbrev S256x64 : Shape := ⟨2, ![256, 64]⟩
abbrev S64 : Shape := ⟨1, ![64]⟩
abbrev S64x64 : Shape := ⟨2, ![64, 64]⟩
abbrev S1x64 : Shape := ⟨2, ![1, 64]⟩
abbrev S100000x64 : Shape := ⟨2, ![100000, 64]⟩
abbrev S4000x256 : Shape := ⟨2, ![4000, 256]⟩
abbrev S4000x64 : Shape := ⟨2, ![4000, 64]⟩
abbrev S1x1600000 : Shape := ⟨2, ![1, 1600000]⟩
abbrev S_ : Shape := ⟨0, ![]⟩
abbrev S1600000x1 : Shape := ⟨2, ![1600000, 1]⟩
abbrev S1600000x64 : Shape := ⟨2, ![1600000, 64]⟩
abbrev S12800x64 : Shape := ⟨2, ![12800, 64]⟩
abbrev S12800x1 : Shape := ⟨2, ![12800, 1]⟩
abbrev S12800 : Shape := ⟨1, ![12800]⟩

abbrev nBuf : Space → Nat
  | .hbm => 34
  | .vmem => 16
  | .smem => 0
  | _ => 0

abbrev bufTy : (tb : Table) → Fin (tcTables nBuf tb) → BufTy
  | .hbm, ⟨0, _⟩ => ⟨S100000x256, .f32⟩
  | .hbm, ⟨1, _⟩ => ⟨S2x1600000, .i32⟩
  | .hbm, ⟨2, _⟩ => ⟨S1600000, .f32⟩
  | .hbm, ⟨3, _⟩ => ⟨S256x64, .f32⟩
  | .hbm, ⟨4, _⟩ => ⟨S64, .f32⟩
  | .hbm, ⟨5, _⟩ => ⟨S64x64, .f32⟩
  | .hbm, ⟨6, _⟩ => ⟨S64, .f32⟩
  | .hbm, ⟨7, _⟩ => ⟨S1x64, .f32⟩
  | .hbm, ⟨8, _⟩ => ⟨S1x64, .f32⟩
  | .hbm, ⟨9, _⟩ => ⟨S100000x64, .bf16⟩
  | .hbm, ⟨10, _⟩ => ⟨S1x1600000, .i32⟩
  | .hbm, ⟨11, _⟩ => ⟨S1600000, .i32⟩
  | .hbm, ⟨12, _⟩ => ⟨S1x1600000, .i32⟩
  | .hbm, ⟨13, _⟩ => ⟨S1600000, .i32⟩
  | .hbm, ⟨14, _⟩ => ⟨S_, .i32⟩
  | .hbm, ⟨15, _⟩ => ⟨S1600000, .i32⟩
  | .hbm, ⟨16, _⟩ => ⟨S1600000, .i1⟩
  | .hbm, ⟨17, _⟩ => ⟨S_, .i32⟩
  | .hbm, ⟨18, _⟩ => ⟨S1600000, .i32⟩
  | .hbm, ⟨19, _⟩ => ⟨S1600000, .i32⟩
  | .hbm, ⟨20, _⟩ => ⟨S1600000, .i32⟩
  | .hbm, ⟨21, _⟩ => ⟨S1600000x1, .i32⟩
  | .hbm, ⟨22, _⟩ => ⟨S1600000x64, .bf16⟩
  | .hbm, ⟨23, _⟩ => ⟨S_, .i32⟩
  | .hbm, ⟨24, _⟩ => ⟨S1600000, .i32⟩
  | .hbm, ⟨25, _⟩ => ⟨S1600000, .i1⟩
  | .hbm, ⟨26, _⟩ => ⟨S_, .i32⟩
  | .hbm, ⟨27, _⟩ => ⟨S1600000, .i32⟩
  | .hbm, ⟨28, _⟩ => ⟨S1600000, .i32⟩
  | .hbm, ⟨29, _⟩ => ⟨S1600000, .i32⟩
  | .hbm, ⟨30, _⟩ => ⟨S1600000x1, .i32⟩
  | .hbm, ⟨31, _⟩ => ⟨S1600000x64, .bf16⟩
  | .hbm, ⟨32, _⟩ => ⟨S1600000x1, .f32⟩
  | .hbm, ⟨33, _⟩ => ⟨S1600000x1, .f32⟩
  | .local _ .vmem, ⟨0, _⟩ => ⟨S4000x256, .f32⟩
  | .local _ .vmem, ⟨1, _⟩ => ⟨S4000x256, .f32⟩
  | .local _ .vmem, ⟨2, _⟩ => ⟨S256x64, .f32⟩
  | .local _ .vmem, ⟨3, _⟩ => ⟨S1x64, .f32⟩
  | .local _ .vmem, ⟨4, _⟩ => ⟨S64x64, .f32⟩
  | .local _ .vmem, ⟨5, _⟩ => ⟨S1x64, .f32⟩
  | .local _ .vmem, ⟨6, _⟩ => ⟨S4000x64, .bf16⟩
  | .local _ .vmem, ⟨7, _⟩ => ⟨S4000x64, .bf16⟩
  | .local _ .vmem, ⟨8, _⟩ => ⟨S12800x64, .bf16⟩
  | .local _ .vmem, ⟨9, _⟩ => ⟨S12800x64, .bf16⟩
  | .local _ .vmem, ⟨10, _⟩ => ⟨S12800x64, .bf16⟩
  | .local _ .vmem, ⟨11, _⟩ => ⟨S12800x64, .bf16⟩
  | .local _ .vmem, ⟨12, _⟩ => ⟨S12800x1, .f32⟩
  | .local _ .vmem, ⟨13, _⟩ => ⟨S12800x1, .f32⟩
  | .local _ .vmem, ⟨14, _⟩ => ⟨S12800x1, .f32⟩
  | .local _ .vmem, ⟨15, _⟩ => ⟨S12800x1, .f32⟩
  | _, _ => ⟨S100000x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_c : Ref sig .tc := ⟨.hbm, 14, rfl⟩
abbrev main_v7 : Ref sig .tc := ⟨.hbm, 15, rfl⟩
abbrev main_v8 : Ref sig .tc := ⟨.hbm, 16, rfl⟩
abbrev main_c_0 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_c_1 : Ref sig .tc := ⟨.hbm, 23, rfl⟩
abbrev main_v14 : Ref sig .tc := ⟨.hbm, 24, rfl⟩
abbrev main_v15 : Ref sig .tc := ⟨.hbm, 25, rfl⟩
abbrev main_c_2 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg5_1 : Ref sig .tc := ⟨.vmem, 7, rfl⟩
abbrev cc1_stg0_0 : Ref sig .tc := ⟨.vmem, 8, rfl⟩
abbrev cc1_stg0_1 : Ref sig .tc := ⟨.vmem, 9, rfl⟩
abbrev cc1_stg1_0 : Ref sig .tc := ⟨.vmem, 10, rfl⟩
abbrev cc1_stg1_1 : Ref sig .tc := ⟨.vmem, 11, rfl⟩
abbrev cc1_stg2_0 : Ref sig .tc := ⟨.vmem, 12, rfl⟩
abbrev cc1_stg2_1 : Ref sig .tc := ⟨.vmem, 13, rfl⟩
abbrev cc1_stg3_0 : Ref sig .tc := ⟨.vmem, 14, rfl⟩
abbrev cc1_stg3_1 : Ref sig .tc := ⟨.vmem, 15, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem5_1 : DmaSem sig := 7
abbrev cc1_sem0_0 : DmaSem sig := 8
abbrev cc1_sem0_1 : DmaSem sig := 9
abbrev cc1_sem1_0 : DmaSem sig := 10
abbrev cc1_sem1_1 : DmaSem sig := 11
abbrev cc1_sem2_0 : DmaSem sig := 12
abbrev cc1_sem2_1 : DmaSem sig := 13
abbrev cc1_sem3_0 : DmaSem sig := 14
abbrev cc1_sem3_1 : DmaSem sig := 15

abbrev nD : Nat := 1
abbrev τ : Topo := Topo.v7x

variable {F : FTy → Type} [FloatOps F]

abbrev grid0 : Pipeline.Grid := ⟨1, ![25], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S4000x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S256x64 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x64 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S64x64 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x64 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S4000x64 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev grid1 : Pipeline.Grid := ⟨1, ![125], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_3 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S12800x64 .bf16 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S12800x64 .bf16 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 2 → Memref sig .tc .vmem S12800x1 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev stage1_3 : Fin 2 → Memref sig .tc .vmem S12800x1 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

class Facts₀ : Prop where
  shapeCasts_S64_S1x64 : S64.ShapeCasts S1x64
  inb_S4000x256_S4000x256_0_0 : ∀ a, (![0, 0] : Fin 2 → Nat) a + S4000x256.size a ≤ S4000x256.size a
  h_S4000x256 : 0 < S4000x256.numel
  bitsLt_bf16_f32 : FTy.bits .bf16 < FTy.bits .f32
  inb_S256x64_S256x64_0_0 : ∀ a, (![0, 0] : Fin 2 → Nat) a + S256x64.size a ≤ S256x64.size a
  h_S256x64 : 0 < S256x64.numel
  inb_S1x64_S1x64_0_0 : ∀ a, (![0, 0] : Fin 2 → Nat) a + S1x64.size a ≤ S1x64.size a
  h_S1x64 : 0 < S1x64.numel
  shapeCasts_S1x64_S1x64 : S1x64.ShapeCasts S1x64
  broadcasts_S1x64_S4000x64 : S1x64.Broadcasts S4000x64
  inb_S64x64_S64x64_0_0 : ∀ a, (![0, 0] : Fin 2 → Nat) a + S64x64.size a ≤ S64x64.size a
  h_S64x64 : 0 < S64x64.numel
  inb_S4000x64_S4000x64_0_0 : ∀ a, (![0, 0] : Fin 2 → Nat) a + S4000x64.size a ≤ S4000x64.size a
  h_S4000x64 : 0 < S4000x64.numel
  packedbf16_S4000x64_S4000x64_0_0 : (Rect.unit (s := S4000x64) ![0, 0] S4000x64.size inb_S4000x64_S4000x64_0_0).PackedRows (EltTy.packing .bf16)
  slices_S2x1600000_S1x1600000_0_0 : S2x1600000.Slices ![0, 0] S1x1600000
  shapeCasts_S1x1600000_S1600000 : S1x1600000.ShapeCasts S1600000
  slices_S2x1600000_S1x1600000_1_0 : S2x1600000.Slices ![1, 0] S1x1600000
  bcast_S_S1600000 : S_.BroadcastsInDim S1600000 (![] : Fin 0 → Fin S1600000.rank)
  bcast_S1600000_S1600000x1_0 : S1600000.BroadcastsInDim S1600000x1 (![0] : Fin 1 → Fin S1600000x1.rank)
  shapeCasts_S1600000_S1600000x1 : S1600000.ShapeCasts S1600000x1
  inb_S12800x64_S12800x64_0_0 : ∀ a, (![0, 0] : Fin 2 → Nat) a + S12800x64.size a ≤ S12800x64.size a
  h_S12800x64 : 0 < S12800x64.numel
  shapeCasts_S12800x64_S12800x64 : S12800x64.ShapeCasts S12800x64
  reduces_S12800x64_S12800 : S12800x64.Reduces [1] S12800
  shapeCasts_S12800_S12800x1 : S12800.ShapeCasts S12800x1
  inb_S12800x1_S12800x1_0_0 : ∀ a, (![0, 0] : Fin 2 → Nat) a + S12800x1.size a ≤ S12800x1.size a
  h_S12800x1 : 0 < S12800x1.numel
  shapeCasts_S12800x1_S12800x1 : S12800x1.ShapeCasts S12800x1
  dot_S4000x256_S256x64_S4000x64_1_0_0_1_n_n_wf : DotDims.WF S4000x256 S256x64 S4000x64 [1] [0] [0] [1] [] []
  dot_S4000x64_S64x64_S4000x64_1_0_0_1_n_n_wf : DotDims.WF S4000x64 S64x64 S4000x64 [1] [0] [0] [1] [] []
  gather_S100000x64_S1600000x1_S1600000x64_1_0_n_n_0_1_164_wf : GatherDims.WF S100000x64 S1600000x1 S1600000x64 [1] [0] [] [0] [] 1 ![1, 64]
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S4000x256.size a ≤ S100000x256.size a
  hwx0_0 : ∀ i : grid0.Coords, EltTy.bits .f32 = 32 ∨ (Rect.block (s := S100000x256) S4000x256.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S256x64.size a ≤ S256x64.size a
  hwx0_1 : ∀ i : grid0.Coords, EltTy.bits .f32 = 32 ∨ (Rect.block (s := S256x64) S256x64.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x64.size a ≤ S1x64.size a
  hwx0_2 : ∀ i : grid0.Coords, EltTy.bits .f32 = 32 ∨ (Rect.block (s := S1x64) S1x64.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S64x64.size a ≤ S64x64.size a
  hwx0_3 : ∀ i : grid0.Coords, EltTy.bits .f32 = 32 ∨ (Rect.block (s := S64x64) S64x64.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x64.size a ≤ S1x64.size a
  hwx0_4 : ∀ i : grid0.Coords, EltTy.bits .f32 = 32 ∨ (Rect.block (s := S1x64) S1x64.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S4000x64.size a ≤ S100000x64.size a
  hwx0_5 : ∀ i : grid0.Coords, EltTy.bits .bf16 = 32 ∨ (Rect.block (s := S100000x64) S4000x64.size (cc0_transform_5 i) (hinb0_5 i)).WholeWords (EltTy.packing .bf16)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S12800x64.size a ≤ S1600000x64.size a
  hwx1_0 : ∀ i : grid1.Coords, EltTy.bits .bf16 = 32 ∨ (Rect.block (s := S1600000x64) S12800x64.size (cc1_transform_0 i) (hinb1_0 i)).WholeWords (EltTy.packing .bf16)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S12800x64.size a ≤ S1600000x64.size a
  hwx1_1 : ∀ i : grid1.Coords, EltTy.bits .bf16 = 32 ∨ (Rect.block (s := S1600000x64) S12800x64.size (cc1_transform_1 i) (hinb1_1 i)).WholeWords (EltTy.packing .bf16)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S12800x1.size a ≤ S1600000x1.size a
  hwx1_2 : ∀ i : grid1.Coords, EltTy.bits .f32 = 32 ∨ (Rect.block (s := S1600000x1) S12800x1.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S12800x1.size a ≤ S1600000x1.size a
  hwx1_3 : ∀ i : grid1.Coords, EltTy.bits .f32 = 32 ∨ (Rect.block (s := S1600000x1) S12800x1.size (cc1_transform_3 i) (hinb1_3 i)).WholeWords (EltTy.packing .f32)

variable [Facts₀]

def dot_S4000x256_S256x64_S4000x64_1_0_0_1_n_n : DotDims S4000x256 S256x64 S4000x64 where
  lhsContracting := [1]
  rhsContracting := [0]
  lhsNonContracting := [0]
  rhsNonContracting := [1]
  lhsBatch := []
  rhsBatch := []
  wf := dot_S4000x256_S256x64_S4000x64_1_0_0_1_n_n_wf
def dot_S4000x64_S64x64_S4000x64_1_0_0_1_n_n : DotDims S4000x64 S64x64 S4000x64 where
  lhsContracting := [1]
  rhsContracting := [0]
  lhsNonContracting := [0]
  rhsNonContracting := [1]
  lhsBatch := []
  rhsBatch := []
  wf := dot_S4000x64_S64x64_S4000x64_1_0_0_1_n_n_wf
def gather_S100000x64_S1600000x1_S1600000x64_1_0_n_n_0_1_164 : GatherDims S100000x64 S1600000x1 S1600000x64 where
  offsetDims := [1]
  collapsedSliceDims := [0]
  operandBatchingDims := []
  startIndicesBatchingDims := []
  startIndexMap := [0]
  indexVectorDim := 1
  sliceSizes := ![1, 64]
  wf := gather_S100000x64_S1600000x1_S1600000x64_1_0_n_n_0_1_164_wf

abbrev win0_0 : Pipeline.Window sig grid0 :=
  Pipeline.Window.ofSpec (Memref.whole main_arg0) S4000x256.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg3) S256x64.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v0) S1x64.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_arg5) S64x64.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v1) S1x64.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v2) S4000x64.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

abbrev win1_0 : Pipeline.Window sig grid1 :=
  Pipeline.Window.ofSpec (Memref.whole main_v13) S12800x64.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v20) S12800x64.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v21) S12800x1.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_v22) S12800x1.size cc1_transform_3 reads1_3 true false 2 stage1_3 sem1_3
    hrank1 hreads1_3 hinb1_3 nbuf1_3 (Memref.isWhole_whole _) hwx1_3 hstage1_3

abbrev win1 : Fin 4 → Pipeline.Window sig grid1 := fun | 0 => win1_0 | 1 => win1_1 | 2 => win1_2 | 3 => win1_3 | ⟨_ + 4, h⟩ => absurd h (Nat.not_lt.2 (Nat.le_add_left _ _))
abbrev spec1 : Fin 4 → Pipeline.WinSpec sig grid1.rank := fun w => (win1 w).toWinSpec

class Facts : Prop extends Facts₀ where

variable [Facts]
-- ==== ReferenceIdeal.lean ====
abbrev S100000x256 : Shape := ⟨2, ![100000, 256]⟩
abbrev S2x1600000 : Shape := ⟨2, ![2, 1600000]⟩
abbrev S1600000 : Shape := ⟨1, ![1600000]⟩
abbrev S256x64 : Shape := ⟨2, ![256, 64]⟩
abbrev S64 : Shape := ⟨1, ![64]⟩
abbrev S64x64 : Shape := ⟨2, ![64, 64]⟩
abbrev S100000x64 : Shape := ⟨2, ![100000, 64]⟩
abbrev S1x64 : Shape := ⟨2, ![1, 64]⟩
abbrev S_ : Shape := ⟨0, ![]⟩
abbrev S1x1600000 : Shape := ⟨2, ![1, 1600000]⟩
abbrev S1600000x1 : Shape := ⟨2, ![1600000, 1]⟩
abbrev S1600000x64 : Shape := ⟨2, ![1600000, 64]⟩

abbrev nBuf : Space → Nat
  | .hbm => 57
  | .vmem => 0
  | .smem => 0
  | _ => 0

abbrev bufTy : (tb : Table) → Fin (tcTables nBuf tb) → BufTy
  | .hbm, ⟨0, _⟩ => ⟨S100000x256, .f32⟩
  | .hbm, ⟨1, _⟩ => ⟨S2x1600000, .i32⟩
  | .hbm, ⟨2, _⟩ => ⟨S1600000, .f32⟩
  | .hbm, ⟨3, _⟩ => ⟨S256x64, .f32⟩
  | .hbm, ⟨4, _⟩ => ⟨S64, .f32⟩
  | .hbm, ⟨5, _⟩ => ⟨S64x64, .f32⟩
  | .hbm, ⟨6, _⟩ => ⟨S64, .f32⟩
  | .hbm, ⟨7, _⟩ => ⟨S100000x64, .f32⟩
  | .hbm, ⟨8, _⟩ => ⟨S1x64, .f32⟩
  | .hbm, ⟨9, _⟩ => ⟨S100000x64, .f32⟩
  | .hbm, ⟨10, _⟩ => ⟨S100000x64, .f32⟩
  | .hbm, ⟨11, _⟩ => ⟨S_, .f32⟩
  | .hbm, ⟨12, _⟩ => ⟨S100000x64, .f32⟩
  | .hbm, ⟨13, _⟩ => ⟨S100000x64, .f32⟩
  | .hbm, ⟨14, _⟩ => ⟨S100000x64, .f32⟩
  | .hbm, ⟨15, _⟩ => ⟨S1x64, .f32⟩
  | .hbm, ⟨16, _⟩ => ⟨S100000x64, .f32⟩
  | .hbm, ⟨17, _⟩ => ⟨S100000x64, .f32⟩
  | .hbm, ⟨18, _⟩ => ⟨S_, .f32⟩
  | .hbm, ⟨19, _⟩ => ⟨S100000x64, .f32⟩
  | .hbm, ⟨20, _⟩ => ⟨S100000x64, .f32⟩
  | .hbm, ⟨21, _⟩ => ⟨S1x1600000, .i32⟩
  | .hbm, ⟨22, _⟩ => ⟨S1600000, .i32⟩
  | .hbm, ⟨23, _⟩ => ⟨S1x1600000, .i32⟩
  | .hbm, ⟨24, _⟩ => ⟨S1600000, .i32⟩
  | .hbm, ⟨25, _⟩ => ⟨S_, .i32⟩
  | .hbm, ⟨26, _⟩ => ⟨S1600000, .i32⟩
  | .hbm, ⟨27, _⟩ => ⟨S1600000, .i1⟩
  | .hbm, ⟨28, _⟩ => ⟨S_, .i32⟩
  | .hbm, ⟨29, _⟩ => ⟨S1600000, .i32⟩
  | .hbm, ⟨30, _⟩ => ⟨S1600000, .i32⟩
  | .hbm, ⟨31, _⟩ => ⟨S1600000, .i32⟩
  | .hbm, ⟨32, _⟩ => ⟨S1600000x1, .i32⟩
  | .hbm, ⟨33, _⟩ => ⟨S1600000x64, .f32⟩
  | .hbm, ⟨34, _⟩ => ⟨S_, .i32⟩
  | .hbm, ⟨35, _⟩ => ⟨S1600000, .i32⟩
  | .hbm, ⟨36, _⟩ => ⟨S1600000, .i1⟩
  | .hbm, ⟨37, _⟩ => ⟨S_, .i32⟩
  | .hbm, ⟨38, _⟩ => ⟨S1600000, .i32⟩
  | .hbm, ⟨39, _⟩ => ⟨S1600000, .i32⟩
  | .hbm, ⟨40, _⟩ => ⟨S1600000, .i32⟩
  | .hbm, ⟨41, _⟩ => ⟨S1600000x1, .i32⟩
  | .hbm, ⟨42, _⟩ => ⟨S1600000x64, .f32⟩
  | .hbm, ⟨43, _⟩ => ⟨S1600000x64, .f32⟩
  | .hbm, ⟨44, _⟩ => ⟨S_, .f32⟩
  | .hbm, ⟨45, _⟩ => ⟨S1600000, .f32⟩
  | .hbm, ⟨46, _⟩ => ⟨S1600000x1, .f32⟩
  | .hbm, ⟨47, _⟩ => ⟨S1600000x1, .f32⟩
  | .hbm, ⟨48, _⟩ => ⟨S1600000x1, .f32⟩
  | .hbm, ⟨49, _⟩ => ⟨S1600000x1, .f32⟩
  | .hbm, ⟨50, _⟩ => ⟨S1600000x1, .f32⟩
  | .hbm, ⟨51, _⟩ => ⟨S_, .f32⟩
  | .hbm, ⟨52, _⟩ => ⟨S1600000x1, .f32⟩
  | .hbm, ⟨53, _⟩ => ⟨S1600000x1, .f32⟩
  | .hbm, ⟨54, _⟩ => ⟨S_, .f32⟩
  | .hbm, ⟨55, _⟩ => ⟨S1600000x1, .f32⟩
  | .hbm, ⟨56, _⟩ => ⟨S1600000x1, .f32⟩
  | _, _ => ⟨S100000x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_call0_cst : Ref sig .tc := ⟨.hbm, 11, rfl⟩
abbrev main_call0_v0 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_call1_cst : Ref sig .tc := ⟨.hbm, 18, rfl⟩
abbrev main_call1_v0 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_c : Ref sig .tc := ⟨.hbm, 25, rfl⟩
abbrev main_v14 : Ref sig .tc := ⟨.hbm, 26, rfl⟩
abbrev main_v15 : Ref sig .tc := ⟨.hbm, 27, rfl⟩
abbrev main_c_0 : Ref sig .tc := ⟨.hbm, 28, rfl⟩
abbrev main_v16 : Ref sig .tc := ⟨.hbm, 29, rfl⟩
abbrev main_v17 : Ref sig .tc := ⟨.hbm, 30, rfl⟩
abbrev main_v18 : Ref sig .tc := ⟨.hbm, 31, rfl⟩
abbrev main_v19 : Ref sig .tc := ⟨.hbm, 32, rfl⟩
abbrev main_v20 : Ref sig .tc := ⟨.hbm, 33, rfl⟩
abbrev main_c_1 : Ref sig .tc := ⟨.hbm, 34, rfl⟩
abbrev main_v21 : Ref sig .tc := ⟨.hbm, 35, rfl⟩
abbrev main_v22 : Ref sig .tc := ⟨.hbm, 36, rfl⟩
abbrev main_c_2 : Ref sig .tc := ⟨.hbm, 37, rfl⟩
abbrev main_v23 : Ref sig .tc := ⟨.hbm, 38, rfl⟩
abbrev main_v24 : Ref sig .tc := ⟨.hbm, 39, rfl⟩
abbrev main_v25 : Ref sig .tc := ⟨.hbm, 40, rfl⟩
abbrev main_v26 : Ref sig .tc := ⟨.hbm, 41, rfl⟩
abbrev main_v27 : Ref sig .tc := ⟨.hbm, 42, rfl⟩
abbrev main_v28 : Ref sig .tc := ⟨.hbm, 43, rfl⟩
abbrev main_cst : Ref sig .tc := ⟨.hbm, 44, rfl⟩
abbrev main_v29 : Ref sig .tc := ⟨.hbm, 45, rfl⟩
abbrev main_v30 : Ref sig .tc := ⟨.hbm, 46, rfl⟩
abbrev main_v31 : Ref sig .tc := ⟨.hbm, 47, rfl⟩
abbrev main_v32 : Ref sig .tc := ⟨.hbm, 48, rfl⟩
abbrev main_v33 : Ref sig .tc := ⟨.hbm, 49, rfl⟩
abbrev main_v34 : Ref sig .tc := ⟨.hbm, 50, rfl⟩
abbrev main_cst_3 : Ref sig .tc := ⟨.hbm, 51, rfl⟩
abbrev main_v35 : Ref sig .tc := ⟨.hbm, 52, rfl⟩
abbrev main_v36 : Ref sig .tc := ⟨.hbm, 53, rfl⟩
abbrev main_cst_4 : Ref sig .tc := ⟨.hbm, 54, rfl⟩
abbrev main_v37 : Ref sig .tc := ⟨.hbm, 55, rfl⟩
abbrev main_v38 : Ref sig .tc := ⟨.hbm, 56, rfl⟩

abbrev nD : Nat := 1
abbrev τ : Topo := Topo.v7x

variable {F : FTy → Type} [FloatOps F]

class Facts₀ : Prop where
  bcast_S64_S1x64_1 : S64.BroadcastsInDim S1x64 (![1] : Fin 1 → Fin S1x64.rank)
  bcast_S1x64_S100000x64_0_1 : S1x64.BroadcastsInDim S100000x64 (![0, 1] : Fin 2 → Fin S100000x64.rank)
  bcast_S_S100000x64 : S_.BroadcastsInDim S100000x64 (![] : Fin 0 → Fin S100000x64.rank)
  slices_S2x1600000_S1x1600000_0_0 : S2x1600000.Slices ![0, 0] S1x1600000
  shapeCasts_S1x1600000_S1600000 : S1x1600000.ShapeCasts S1600000
  slices_S2x1600000_S1x1600000_1_0 : S2x1600000.Slices ![1, 0] S1x1600000
  bcast_S_S1600000 : S_.BroadcastsInDim S1600000 (![] : Fin 0 → Fin S1600000.rank)
  bcast_S1600000_S1600000x1_0 : S1600000.BroadcastsInDim S1600000x1 (![0] : Fin 1 → Fin S1600000x1.rank)
  reducesTo_S1600000x64_S1600000_d1 : S1600000x64.ReducesTo [1] S1600000
  h_S_ : 0 < S_.numel
  bcast_S_S1600000x1 : S_.BroadcastsInDim S1600000x1 (![] : Fin 0 → Fin S1600000x1.rank)
  dot_S100000x256_S256x64_S100000x64_1_0_0_1_n_n_wf : DotDims.WF S100000x256 S256x64 S100000x64 [1] [0] [0] [1] [] []
  dot_S100000x64_S64x64_S100000x64_1_0_0_1_n_n_wf : DotDims.WF S100000x64 S64x64 S100000x64 [1] [0] [0] [1] [] []
  gather_S100000x64_S1600000x1_S1600000x64_1_0_n_n_0_1_164_wf : GatherDims.WF S100000x64 S1600000x1 S1600000x64 [1] [0] [] [0] [] 1 ![1, 64]

variable [Facts₀]

def dot_S100000x256_S256x64_S100000x64_1_0_0_1_n_n : DotDims S100000x256 S256x64 S100000x64 where
  lhsContracting := [1]
  rhsContracting := [0]
  lhsNonContracting := [0]
  rhsNonContracting := [1]
  lhsBatch := []
  rhsBatch := []
  wf := dot_S100000x256_S256x64_S100000x64_1_0_0_1_n_n_wf
def dot_S100000x64_S64x64_S100000x64_1_0_0_1_n_n : DotDims S100000x64 S64x64 S100000x64 where
  lhsContracting := [1]
  rhsContracting := [0]
  lhsNonContracting := [0]
  rhsNonContracting := [1]
  lhsBatch := []
  rhsBatch := []
  wf := dot_S100000x64_S64x64_S100000x64_1_0_0_1_n_n_wf
def gather_S100000x64_S1600000x1_S1600000x64_1_0_n_n_0_1_164 : GatherDims S100000x64 S1600000x1 S1600000x64 where
  offsetDims := [1]
  collapsedSliceDims := [0]
  operandBatchingDims := []
  startIndicesBatchingDims := []
  startIndexMap := [0]
  indexVectorDim := 1
  sliceSizes := ![1, 64]
  wf := gather_S100000x64_S1600000x1_S1600000x64_1_0_n_n_0_1_164_wf

class Facts : Prop extends Facts₀ where

variable [Facts]
-- ==== Proof.LibMatmul.lean ====
/-
  A rows-by-columns product read at an entry (a general lemma: nothing here depends on a program).

  For the dimension numbers "contract the left operand's axis 1 with the right operand's axis 0, no batch axis" over
  operands [A, K] and [K, C], the contraction at entry (a, c), at the ideal values, is the sum over k < K of
  lhs[a, k] · rhs[k, c]; so is a matrix-unit product into a zero accumulator, and so is the host's dot_general.
-/
import Idealize.ShloMosaic.Lib.ValueIdx
import Idealize.ShloMosaic.PureOps.Ideal.Laws

noncomputable section

namespace Cert.Lib.Matmul

open Idealize.ShloMosaic Idealize.ShloMosaic.ValueIdx

variable {A K C : Nat}

/-- The left operand's index keeps the result's row. -/
theorem lhs0 (j : (⟨2, ![A, C]⟩ : Shape).Idx) (q : (DotDims.plain A K C).contr.Idx) :
    ((DotDims.plain A K C).lhsIdx j q 0).val = (j 0).val := by
  unfold DotDims.lhsIdx
  rw [dif_neg (show ¬(0 : Fin 2) ∈ (DotDims.plain A K C).lhsBatch from List.not_mem_nil),
    dif_pos (show (0 : Fin 2) ∈ (DotDims.plain A K C).lhsNonContracting from List.mem_singleton.mpr rfl)]
  rfl

/-- The left operand's column is the contraction coordinate. -/
theorem lhs1 (j : (⟨2, ![A, C]⟩ : Shape).Idx) (q : (DotDims.plain A K C).contr.Idx) :
    ((DotDims.plain A K C).lhsIdx j q 1).val = (q ⟨0, Nat.one_pos⟩).val :=
  (DotDims.plain A K C).lhsIdx_val_of_single rfl j q

/-- The right operand's row is the contraction coordinate. -/
theorem rhs0 (j : (⟨2, ![A, C]⟩ : Shape).Idx) (q : (DotDims.plain A K C).contr.Idx) :
    ((DotDims.plain A K C).rhsIdx j q 0).val = (q ⟨0, Nat.one_pos⟩).val :=
  (DotDims.plain A K C).rhsIdx_val_of_single rfl j q

/-- The right operand's index keeps the result's column. -/
theorem rhs1 (j : (⟨2, ![A, C]⟩ : Shape).Idx) (q : (DotDims.plain A K C).contr.Idx) :
    ((DotDims.plain A K C).rhsIdx j q 1).val = (j 1).val := by
  unfold DotDims.rhsIdx
  rw [dif_neg (show ¬(1 : Fin 2) ∈ (DotDims.plain A K C).rhsBatch from List.not_mem_nil),
    dif_pos (show (1 : Fin 2) ∈ (DotDims.plain A K C).rhsNonContracting from List.mem_singleton.mpr rfl)]
  rfl

/-- The contraction at entry (a, c) is the sum over the K products lhs[a, k] · rhs[k, c]. -/
theorem contr_sum (lhs : (⟨2, ![A, K]⟩ : Shape).Idx → EReal) (rhs : (⟨2, ![K, C]⟩ : Shape).Idx → EReal)
    (a : Fin A) (c : Fin C) :
    ∑ q : (DotDims.plain A K C).contr.Idx,
        lhs ((DotDims.plain A K C).lhsIdx (ix2 a c) q) * rhs ((DotDims.plain A K C).rhsIdx (ix2 a c) q)
      = ∑ k : Fin K, lhs (ix2 a k) * rhs (ix2 k c) := by
  rw [← Equiv.sum_comp (contrEquiv1 (DotDims.plain A K C) K rfl rfl).symm]
  refine Finset.sum_congr rfl fun k _ => ?_
  have hk := contrEquiv1_symm_val (DotDims.plain A K C) K rfl rfl k
  have el : (DotDims.plain A K C).lhsIdx (ix2 a c) ((contrEquiv1 (DotDims.plain A K C) K rfl rfl).symm k)
      = ix2 a k := funext fun x => Fin.ext (by
    match x with
    | ⟨0, _⟩ => exact lhs0 _ _
    | ⟨1, _⟩ => exact (lhs1 _ _).trans hk)
  have er : (DotDims.plain A K C).rhsIdx (ix2 a c) ((contrEquiv1 (DotDims.plain A K C) K rfl rfl).symm k)
      = ix2 k c := funext fun x => Fin.ext (by
    match x with
    | ⟨0, _⟩ => exact (rhs0 _ _).trans hk
    | ⟨1, _⟩ => exact rhs1 _ _)
  rw [el, er]

/-- A matrix-unit product into a zero accumulator, at entry (a, c). -/
theorem matmul_zero_apply {φ₁ φ₂ : FTy} (prec : Option ContractPrecision)
    (lhs : FVec Ideal ⟨2, ![A, K]⟩ φ₁) (rhs : FVec Ideal ⟨2, ![K, C]⟩ φ₂) (a : Fin A) (c : Fin C) :
    FloatOps.matmul (DotDims.plain A K C) prec lhs rhs (constant ⟨2, ![A, C]⟩ .f32 0x00000000#32) (ix2 a c)
      = ∑ k : Fin K, (lhs (ix2 a k) : EReal) * (rhs (ix2 k c) : EReal) := by
  rw [Ideal.matmul_constant_zero_apply]
  exact contr_sum lhs rhs a c

/-- The host's dot_general, at entry (a, c). -/
theorem dotGeneral_apply {φ₁ φ₂ : FTy} (prec : Option ContractPrecision) (sched : HostSchedule)
    (lhs : FVec Ideal ⟨2, ![A, K]⟩ φ₁) (rhs : FVec Ideal ⟨2, ![K, C]⟩ φ₂) (a : Fin A) (c : Fin C) :
    FloatOps.dotGeneral (DotDims.plain A K C) prec sched lhs rhs (ix2 a c)
      = ∑ k : Fin K, (lhs (ix2 a k) : EReal) * (rhs (ix2 k c) : EReal) := by
  rw [Ideal.dotGeneral_apply]
  exact contr_sum lhs rhs a c

end Cert.Lib.Matmul

end
-- ==== Proof.LibLayout.lean ====
/-
  A row vector broadcast along the rows, read at an entry (a general lemma: nothing here depends on a program).

  A vector of B entries, shape-cast to one row [1, B] and broadcast to A rows [A, B], holds at (p, q) the vector's
  entry q.
-/
import Idealize.ShloMosaic.Lib.ValueIdx
import Idealize.ShloMosaic.Lib.Pipeline.Value

noncomputable section

namespace Cert.Lib.Layout

open Idealize.ShloMosaic Idealize.ShloMosaic.ValueIdx

/-- The one row [1, B] of a vector, at (0, q), is the vector at q. -/
theorem rowCast_apply {α : Type} {B : Nat} (v : (⟨1, ![B]⟩ : Shape).Idx → α)
    (h1 : (⟨1, ![B]⟩ : Shape).ShapeCasts ⟨2, ![1, B]⟩) (z : Fin 1) (q : Fin B) :
    shapeCast ⟨2, ![1, B]⟩ v h1 (ix2 z q) = v (ix1 q) := by
  refine (shapeCast_addUnit_apply (n := 1) ![B] v h1 (ix2 z q)).trans (congrArg v ?_)
  funext a
  match a with
  | ⟨0, _⟩ => rfl

/-- The row broadcast to A rows, at (p, q), is the vector at q. -/
theorem bcastRow_apply {α : Type} {A B : Nat} (v : (⟨1, ![B]⟩ : Shape).Idx → α)
    (h1 : (⟨1, ![B]⟩ : Shape).ShapeCasts ⟨2, ![1, B]⟩) (h2 : (⟨2, ![1, B]⟩ : Shape).Broadcasts ⟨2, ![A, B]⟩)
    (p : Fin A) (q : Fin B) :
    broadcastTo ⟨2, ![A, B]⟩ (shapeCast ⟨2, ![1, B]⟩ v h1) h2 (ix2 p q) = v (ix1 q) := by
  refine (broadcastTo_apply (shapeCast ⟨2, ![1, B]⟩ v h1) h2 (ix2 p q) (ix2 (0 : Fin 1) q) ?_).trans
    (rowCast_apply v h1 0 q)
  intro a
  match a with
  | ⟨0, _⟩ => simp
  | ⟨1, _⟩ =>
    show q.val = if B = 1 then 0 else q.val
    split
    · have := q.isLt; omega
    · rfl

end Cert.Lib.Layout

end
-- ==== Proof.LibDense.lean ====
/-
  A dense layer read as one whole-array function (a general lemma: nothing here depends on a program).

  For x : [A, K], w : [K, C] and b : [C] the affine map is (x·w + b)[a, c] = Σ_{k<K} x[a, k]·w[k, c] + b[c], and its
  rectified form is max(·, 0).  Two spellings compute them at the ideal values.  The matrix unit's: both operands narrowed
  to bf16 (the identity on the extended reals), the product into a zero accumulator, the bias as one row broadcast down the
  rows, the rectifier against a scalar splat.  The host's: dot_general, the bias through two broadcast_in_dim, the
  rectifier against a broadcast scalar constant.  Both are the same function of (x, w, b), entry by entry; the zero the
  rectifier compares with is kept as the word's ideal value on both sides and never evaluated.
-/
import Idealize.ShloMosaic.Lib.ValueIdx
import Idealize.ShloMosaic.Lib.Pipeline.Value
import Idealize.ShloMosaic.PureOps.Ideal.Laws
import proofs.«174267_j49194555408820_1_alg».proof.Proof.LibMatmul
import proofs.«174267_j49194555408820_1_alg».proof.Proof.LibLayout

noncomputable section

namespace Cert.Lib.Dense

open Idealize.ShloMosaic Idealize.ShloMosaic.ValueIdx

variable {A K C : Nat}

/-- (x·w + b) at every entry: row a of x against column c of w, plus the bias of column c. -/
def affine (x : (⟨2, ![A, K]⟩ : Shape).Idx → EReal) (w : (⟨2, ![K, C]⟩ : Shape).Idx → EReal)
    (b : (⟨1, ![C]⟩ : Shape).Idx → EReal) : (⟨2, ![A, C]⟩ : Shape).Idx → EReal :=
  fun i => (∑ k : Fin K, x (ix2 (i 0 : Fin A) k) * w (ix2 k (i 1 : Fin C))) + b (ix1 (i 1 : Fin C))

/-- max(x·w + b, 0) at every entry, the zero being the ideal value of the all-zero f32 word. -/
def rectified (x : (⟨2, ![A, K]⟩ : Shape).Idx → EReal) (w : (⟨2, ![K, C]⟩ : Shape).Idx → EReal)
    (b : (⟨1, ![C]⟩ : Shape).Idx → EReal) : (⟨2, ![A, C]⟩ : Shape).Idx → EReal :=
  fun i => max (affine x w b i) (Ideal.ofBits .f32 0x00000000#32)

theorem affine_apply (x : (⟨2, ![A, K]⟩ : Shape).Idx → EReal) (w : (⟨2, ![K, C]⟩ : Shape).Idx → EReal)
    (b : (⟨1, ![C]⟩ : Shape).Idx → EReal) (a : Fin A) (c : Fin C) :
    affine x w b (ix2 a c) = (∑ k : Fin K, x (ix2 a k) * w (ix2 k c)) + b (ix1 c) := rfl

theorem rectified_apply (x : (⟨2, ![A, K]⟩ : Shape).Idx → EReal) (w : (⟨2, ![K, C]⟩ : Shape).Idx → EReal)
    (b : (⟨1, ![C]⟩ : Shape).Idx → EReal) (a : Fin A) (c : Fin C) :
    rectified x w b (ix2 a c)
      = max ((∑ k : Fin K, x (ix2 a k) * w (ix2 k c)) + b (ix1 c)) (Ideal.ofBits .f32 0x00000000#32) := rfl

/-! ## The matrix unit's spelling -/

/-- Narrowed operands into a zero accumulator, plus the bias row broadcast down: the affine map. -/
theorem mxu_affine (x : FVec Ideal ⟨2, ![A, K]⟩ .f32) (w : FVec Ideal ⟨2, ![K, C]⟩ .f32) (b : FVec Ideal ⟨1, ![C]⟩ .f32)
    (hx : (⟨2, ![A, K]⟩ : Shape).ShapeCasts ⟨2, ![A, K]⟩) (hw : (⟨2, ![K, C]⟩ : Shape).ShapeCasts ⟨2, ![K, C]⟩)
    (hlt : FTy.bf16.bits < FTy.f32.bits)
    (h1 : (⟨1, ![C]⟩ : Shape).ShapeCasts ⟨2, ![1, C]⟩) (h2 : (⟨2, ![1, C]⟩ : Shape).Broadcasts ⟨2, ![A, C]⟩)
    (prec : Option ContractPrecision) :
    addf (matmul (DotDims.plain A K C) prec (truncf .bf16 (shapeCast ⟨2, ![A, K]⟩ x hx) hlt)
        (truncf .bf16 (shapeCast ⟨2, ![K, C]⟩ w hw) hlt) (constant ⟨2, ![A, C]⟩ .f32 0x00000000#32))
      (broadcastTo ⟨2, ![A, C]⟩ (shapeCast ⟨2, ![1, C]⟩ b h1) h2)
    = affine x w b := by
  funext i
  obtain ⟨a, c, rfl⟩ : ∃ (a : Fin A) (c : Fin C), i = ix2 a c := ⟨i 0, i 1, eq_ix2 i⟩
  rw [addf_apply, affine_apply]
  show FloatOps.matmul (DotDims.plain A K C) prec _ _ (constant ⟨2, ![A, C]⟩ .f32 0x00000000#32) (ix2 a c) + _ = _
  rw [Cert.Lib.Matmul.matmul_zero_apply, Cert.Lib.Layout.bcastRow_apply]
  simp only [truncf_apply, shapeCast_self]

/-- The same against a scalar splat of zero: the rectified map. -/
theorem mxu_rectified (x : FVec Ideal ⟨2, ![A, K]⟩ .f32) (w : FVec Ideal ⟨2, ![K, C]⟩ .f32) (b : FVec Ideal ⟨1, ![C]⟩ .f32)
    (hx : (⟨2, ![A, K]⟩ : Shape).ShapeCasts ⟨2, ![A, K]⟩) (hw : (⟨2, ![K, C]⟩ : Shape).ShapeCasts ⟨2, ![K, C]⟩)
    (hlt : FTy.bf16.bits < FTy.f32.bits)
    (h1 : (⟨1, ![C]⟩ : Shape).ShapeCasts ⟨2, ![1, C]⟩) (h2 : (⟨2, ![1, C]⟩ : Shape).Broadcasts ⟨2, ![A, C]⟩)
    (prec : Option ContractPrecision) :
    maximumf (addf (matmul (DotDims.plain A K C) prec (truncf .bf16 (shapeCast ⟨2, ![A, K]⟩ x hx) hlt)
          (truncf .bf16 (shapeCast ⟨2, ![K, C]⟩ w hw) hlt) (constant ⟨2, ![A, C]⟩ .f32 0x00000000#32))
        (broadcastTo ⟨2, ![A, C]⟩ (shapeCast ⟨2, ![1, C]⟩ b h1) h2))
      (broadcast ⟨2, ![A, C]⟩ (Scalar.ofBits (F := Ideal) .f32 0x00000000#32))
    = rectified x w b := by
  funext i
  rw [maximumf_apply, mxu_affine]
  rfl

/-! ## The host's spelling -/

/-- A vector of C entries broadcast to one row and then down A rows, at (a, c), is the vector at c. -/
theorem hostBias_apply (b : (⟨1, ![C]⟩ : Shape).Idx → EReal)
    (hb1 : (⟨1, ![C]⟩ : Shape).BroadcastsInDim ⟨2, ![1, C]⟩ (![1] : Fin 1 → Fin 2))
    (hb2 : (⟨2, ![1, C]⟩ : Shape).BroadcastsInDim ⟨2, ![A, C]⟩ (![0, 1] : Fin 2 → Fin 2)) (a : Fin A) (c : Fin C) :
    broadcastInDim ⟨2, ![A, C]⟩ (![0, 1] : Fin 2 → Fin 2) hb2
        (broadcastInDim ⟨2, ![1, C]⟩ (![1] : Fin 1 → Fin 2) hb1 b) (ix2 a c) = b (ix1 c) := by
  refine (broadcastInDim_apply (![0, 1] : Fin 2 → Fin 2) hb2 _ (ix2 a c) (ix2 (0 : Fin 1) c) ?_).trans
    (broadcastInDim_apply (![1] : Fin 1 → Fin 2) hb1 b (ix2 (0 : Fin 1) c) (ix1 c) ?_)
  · intro d
    match d with
    | ⟨0, _⟩ => simp
    | ⟨1, _⟩ =>
      show c.val = if C = 1 then 0 else c.val
      split
      · have := c.isLt; omega
      · rfl
  · intro d
    match d with
    | ⟨0, _⟩ =>
      show c.val = if C = 1 then 0 else c.val
      split
      · have := c.isLt; omega
      · rfl

/-- dot_general plus the bias through two broadcast_in_dim: the affine map. -/
theorem host_affine (x : FVec Ideal ⟨2, ![A, K]⟩ .f32) (w : FVec Ideal ⟨2, ![K, C]⟩ .f32) (b : FVec Ideal ⟨1, ![C]⟩ .f32)
    (hb1 : (⟨1, ![C]⟩ : Shape).BroadcastsInDim ⟨2, ![1, C]⟩ (![1] : Fin 1 → Fin 2))
    (hb2 : (⟨2, ![1, C]⟩ : Shape).BroadcastsInDim ⟨2, ![A, C]⟩ (![0, 1] : Fin 2 → Fin 2))
    (prec : Option ContractPrecision) :
    addf (Host.dotGeneral (DotDims.plain A K C) prec x w)
      (broadcastInDim ⟨2, ![A, C]⟩ (![0, 1] : Fin 2 → Fin 2) hb2
        (broadcastInDim ⟨2, ![1, C]⟩ (![1] : Fin 1 → Fin 2) hb1 b))
    = affine x w b := by
  funext i
  obtain ⟨a, c, rfl⟩ : ∃ (a : Fin A) (c : Fin C), i = ix2 a c := ⟨i 0, i 1, eq_ix2 i⟩
  rw [addf_apply, affine_apply, hostBias_apply]
  show FloatOps.dotGeneral (DotDims.plain A K C) prec .single x w (ix2 a c) + _ = _
  rw [Cert.Lib.Matmul.dotGeneral_apply]

/-- The same against a broadcast scalar constant zero: the rectified map. -/
theorem host_rectified (x : FVec Ideal ⟨2, ![A, K]⟩ .f32) (w : FVec Ideal ⟨2, ![K, C]⟩ .f32) (b : FVec Ideal ⟨1, ![C]⟩ .f32)
    (hb1 : (⟨1, ![C]⟩ : Shape).BroadcastsInDim ⟨2, ![1, C]⟩ (![1] : Fin 1 → Fin 2))
    (hb2 : (⟨2, ![1, C]⟩ : Shape).BroadcastsInDim ⟨2, ![A, C]⟩ (![0, 1] : Fin 2 → Fin 2))
    (h0 : (⟨0, ![]⟩ : Shape).BroadcastsInDim ⟨2, ![A, C]⟩ (![] : Fin 0 → Fin 2))
    (prec : Option ContractPrecision) :
    maximumf (addf (Host.dotGeneral (DotDims.plain A K C) prec x w)
        (broadcastInDim ⟨2, ![A, C]⟩ (![0, 1] : Fin 2 → Fin 2) hb2
          (broadcastInDim ⟨2, ![1, C]⟩ (![1] : Fin 1 → Fin 2) hb1 b)))
      (broadcastInDim ⟨2, ![A, C]⟩ (![] : Fin 0 → Fin 2) h0 (constant (F := Ideal) ⟨0, ![]⟩ .f32 0x00000000#32))
    = rectified x w b := by
  funext i
  rw [maximumf_apply, host_affine,
    broadcastInDim_apply (![] : Fin 0 → Fin 2) h0 _ i ix0 (fun d => d.elim0)]
  rfl

end Cert.Lib.Dense

end
-- ==== Proof.LibColToRow.lean ====
/-
  A column laid out again as a row and repeated down the rows, read at an entry (a general lemma: nothing here depends
  on a program).

  A column [A, 1] and a row [1, A] hold the same A entries in the same row-major order, so the row at (0, q) is the
  column at (q, 0).  A row [1, A] broadcast to B rows holds at (p, q) the row's entry q.  Together: a column turned into
  a row and broadcast to [B, A] holds at (p, q) the column's entry q — the value that depends on the column index
  alone.  Any sizes A, B.
-/
import Idealize.ShloMosaic.Lib.ValueIdx
import Idealize.ShloMosaic.Lib.Pipeline.Value

noncomputable section

namespace Cert.Lib.ColToRow

open Idealize.ShloMosaic Idealize.ShloMosaic.ValueIdx

/-- The row [1, A] made of a column [A, 1], at (0, q), is the column at (q, 0). -/
theorem colAsRow_apply {α : Type} {A : Nat} (c : (⟨2, ![A, 1]⟩ : Shape).Idx → α)
    (h : (⟨2, ![A, 1]⟩ : Shape).ShapeCasts ⟨2, ![1, A]⟩) (z : Fin 1) (q : Fin A) :
    shapeCast ⟨2, ![1, A]⟩ c h (ix2 z q) = c (ix2 q (0 : Fin 1)) := by
  refine shapeCast_apply c h (ix2 z q) (ix2 q (0 : Fin 1)) ?_
  rw [Shape.rowMajor_val_two, Shape.rowMajor_val_two]
  obtain rfl : z = 0 := Subsingleton.elim _ _
  show q.val * 1 + 0 = 0 * A + q.val
  omega

/-- A row [1, A] broadcast to B rows, at (p, q), is the row at (0, q). -/
theorem bcastRowMat_apply {α : Type} {A B : Nat} (r : (⟨2, ![1, A]⟩ : Shape).Idx → α)
    (h : (⟨2, ![1, A]⟩ : Shape).Broadcasts ⟨2, ![B, A]⟩) (p : Fin B) (q : Fin A) :
    broadcastTo ⟨2, ![B, A]⟩ r h (ix2 p q) = r (ix2 (0 : Fin 1) q) := by
  refine broadcastTo_apply r h (ix2 p q) (ix2 (0 : Fin 1) q) ?_
  intro a
  match a with
  | ⟨0, _⟩ => simp
  | ⟨1, _⟩ =>
    show q.val = if A = 1 then 0 else q.val
    split
    · have := q.isLt; omega
    · rfl

/-- A column turned into a row and broadcast to B rows, at (p, q), is the column at (q, 0). -/
theorem colAsRowBcast_apply {α : Type} {A B : Nat} (c : (⟨2, ![A, 1]⟩ : Shape).Idx → α)
    (h1 : (⟨2, ![A, 1]⟩ : Shape).ShapeCasts ⟨2, ![1, A]⟩) (h2 : (⟨2, ![1, A]⟩ : Shape).Broadcasts ⟨2, ![B, A]⟩)
    (p : Fin B) (q : Fin A) :
    broadcastTo ⟨2, ![B, A]⟩ (shapeCast ⟨2, ![1, A]⟩ c h1) h2 (ix2 p q) = c (ix2 q (0 : Fin 1)) :=
  (bcastRowMat_apply _ h2 p q).trans (colAsRow_apply c h1 0 q)

end Cert.Lib.ColToRow

end
-- ==== Proof.LibLayoutCol.lean ====
/-
  A column vector broadcast along the columns, read at an entry (a general lemma: nothing here depends on a program).

  A vector of A entries, shape-cast to one column [A, 1] and broadcast to B columns [A, B], holds at (p, q) the
  vector's entry p: the row-major position of (p, 0) in [A, 1] is p, and a broadcast reads a unit axis at 0.
-/
import Idealize.ShloMosaic.Lib.ValueIdx
import Idealize.ShloMosaic.Lib.Pipeline.Value

noncomputable section

namespace Cert.Lib.LayoutCol

open Idealize.ShloMosaic Idealize.ShloMosaic.ValueIdx

/-- The one column [A, 1] of a vector, at (p, 0), is the vector at p. -/
theorem colCast_apply {α : Type} {A : Nat} (v : (⟨1, ![A]⟩ : Shape).Idx → α)
    (h1 : (⟨1, ![A]⟩ : Shape).ShapeCasts ⟨2, ![A, 1]⟩) (p : Fin A) (z : Fin 1) :
    shapeCast ⟨2, ![A, 1]⟩ v h1 (ix2 p z) = v (ix1 p) := by
  refine shapeCast_apply v h1 (ix2 p z) (ix1 p) ?_
  rw [Shape.rowMajor_val_one, Shape.rowMajor_val_two]
  show p.val = p.val * 1 + z.val
  have := z.isLt
  omega

/-- The column broadcast to B columns, at (p, q), is the vector at p. -/
theorem bcastCol_apply {α : Type} {A B : Nat} (v : (⟨1, ![A]⟩ : Shape).Idx → α)
    (h1 : (⟨1, ![A]⟩ : Shape).ShapeCasts ⟨2, ![A, 1]⟩) (h2 : (⟨2, ![A, 1]⟩ : Shape).Broadcasts ⟨2, ![A, B]⟩)
    (p : Fin A) (q : Fin B) :
    broadcastTo ⟨2, ![A, B]⟩ (shapeCast ⟨2, ![A, 1]⟩ v h1) h2 (ix2 p q) = v (ix1 p) := by
  refine (broadcastTo_apply (shapeCast ⟨2, ![A, 1]⟩ v h1) h2 (ix2 p q) (ix2 p (0 : Fin 1)) ?_).trans
    (colCast_apply v h1 p 0)
  intro a
  match a with
  | ⟨0, _⟩ =>
    show p.val = if A = 1 then 0 else p.val
    split
    · have := p.isLt; omega
    · rfl
  | ⟨1, _⟩ => simp

end Cert.Lib.LayoutCol

end
-- ==== Proof.LibAxisSum.lean ====
/-
  The row sums and the column sums of a matrix, read at an entry (a general lemma: nothing here depends on a program).

  At the ideal values an add-reduction of an [A, K] matrix over its axis 1 holds at p the sum over k < K of the
  matrix at (p, k), and an add-reduction of a [K, C] matrix over its axis 0 holds at q the sum over k < K of the
  matrix at (k, q): the reduced index with the summed coordinate put back on its axis.
-/
import Idealize.ShloMosaic.Lib.ValueIdx
import Idealize.ShloMosaic.PureOps.Ideal.Laws

noncomputable section

open scoped BigOperators

namespace Cert.Lib.AxisSum

open Idealize.ShloMosaic Idealize.ShloMosaic.ValueIdx

/-- The sum along each row: the reduction over axis 1, at p, is the sum over the row's K entries. -/
theorem rowSum_apply {φ : FTy} {A K : Nat} (src : FVec Ideal ⟨2, ![A, K]⟩ φ) (acc : BitVec φ.bits)
    (h : (⟨2, ![A, K]⟩ : Shape).Reduces [1] ⟨1, ![A]⟩) (hφ : FKind.Formats φ) (hacc : acc = FKind.add.neutral φ hφ)
    (p : Fin A) :
    multiReduction .add [1] ⟨1, ![A]⟩ src acc h hφ hacc (ix1 p) = ∑ k : Fin K, (src (ix2 p k) : EReal) := by
  rw [Ideal.multiReduction_add_single]
  refine Finset.sum_congr rfl fun k _ => congrArg src ?_
  funext a
  match a with
  | ⟨0, _⟩ => rfl
  | ⟨1, _⟩ => rfl

/-- The sum down each column: the reduction over axis 0, at q, is the sum over the column's K entries. -/
theorem colSum_apply {φ : FTy} {K C : Nat} (src : FVec Ideal ⟨2, ![K, C]⟩ φ) (acc : BitVec φ.bits)
    (h : (⟨2, ![K, C]⟩ : Shape).Reduces [0] ⟨1, ![C]⟩) (hφ : FKind.Formats φ) (hacc : acc = FKind.add.neutral φ hφ)
    (q : Fin C) :
    multiReduction .add [0] ⟨1, ![C]⟩ src acc h hφ hacc (ix1 q) = ∑ k : Fin K, (src (ix2 k q) : EReal) := by
  rw [Ideal.multiReduction_add_single]
  refine Finset.sum_congr rfl fun k _ => congrArg src ?_
  funext a
  match a with
  | ⟨0, _⟩ => rfl
  | ⟨1, _⟩ => rfl

end Cert.Lib.AxisSum

end
-- ==== Proof.LibColSum.lean ====
/-
  Row sums kept as a column, read at an entry (a general lemma: nothing here depends on a program).

  A column [A, 1] broadcast to B columns holds at (p, q) the column's entry p.  The sums along the rows of an [A, K]
  matrix, laid out as a column [A, 1], hold at (p, 0) the sum over k < K of the matrix at (p, k): the form a kernel
  gives a sum over the last axis that keeps that axis with extent one.  The accumulator fact is stated as the
  equation of two zero words, the form in which a printed reduction carries it.
-/
import proofs.«174267_j49194555408820_1_alg».proof.Proof.LibLayoutCol
import proofs.«174267_j49194555408820_1_alg».proof.Proof.LibAxisSum
import Idealize.ShloMosaic.Lib.ValueIdx
import Idealize.ShloMosaic.Lib.Pipeline.Value
import Idealize.ShloMosaic.PureOps.Ideal.Laws

noncomputable section

open scoped BigOperators

namespace Cert.Lib.ColSum

open Idealize.ShloMosaic Idealize.ShloMosaic.ValueIdx

/-- A column [A, 1] broadcast to B columns, at (p, q), is the column at p. -/
theorem bcastColMat_apply {α : Type} {A B : Nat} (c : (⟨2, ![A, 1]⟩ : Shape).Idx → α)
    (h : (⟨2, ![A, 1]⟩ : Shape).Broadcasts ⟨2, ![A, B]⟩) (p : Fin A) (q : Fin B) :
    broadcastTo ⟨2, ![A, B]⟩ c h (ix2 p q) = c (ix2 p (0 : Fin 1)) := by
  refine broadcastTo_apply c h (ix2 p q) (ix2 p (0 : Fin 1)) ?_
  intro a
  match a with
  | ⟨0, _⟩ =>
    show p.val = if A = 1 then 0 else p.val
    split
    · have := p.isLt; omega
    · rfl
  | ⟨1, _⟩ => simp

/-- The sums along the rows of a matrix, laid out as a column: at (p, 0) the sum of row p. -/
theorem rowSumCol_apply {A K : Nat} (src : FVec Ideal ⟨2, ![A, K]⟩ .f32)
    (h : (⟨2, ![A, K]⟩ : Shape).Reduces [1] ⟨1, ![A]⟩) (hφ : FKind.Formats .f32) (hacc : (0x00000000#32 : BitVec 32) = 0x00000000#32)
    (hc : (⟨1, ![A]⟩ : Shape).ShapeCasts ⟨2, ![A, 1]⟩) (p : Fin A) (z : Fin 1) :
    shapeCast ⟨2, ![A, 1]⟩ (multiReduction .add [1] ⟨1, ![A]⟩ src 0x00000000#32 h hφ hacc) hc (ix2 p z)
      = ∑ k : Fin K, (src (ix2 p k) : EReal) := by
  exact (Cert.Lib.LayoutCol.colCast_apply _ hc p z).trans (Cert.Lib.AxisSum.rowSum_apply src 0x00000000#32 h hφ hacc p)

end Cert.Lib.ColSum

end
-- ==== Proof.Layers.lean ====
/-
  The two computations of this network as whole-array functions of their operands, at the ideal values.

  A rectified dense layer with its bias held as a one-row matrix: for x : [A, K], w : [K, C] and a row r : [1, C],
  max(Σ_k x[a, k]·w[k, c] + r[0, c], 0).  Narrowing the operands to bf16 is the identity on the extended reals, the
  product goes into a zero accumulator, the row is repeated down the A rows, and the rectifier compares with a splat of
  the zero word.  A block of rows of the layer's result is the layer of that block of rows of x.

  The edge score: for two matrices hs, ht : [E, H] and a column w : [E, 1], sigmoid((Σ_k hs[e, k]·ht[e, k])·w[e, 0]), the
  row sums kept as a column.  Entry e depends on row e of each operand alone.
-/
import Idealize.ShloMosaic.Lib.ValueIdx
import Idealize.ShloMosaic.Lib.Pipeline.Value
import Idealize.ShloMosaic.PureOps.Ideal.Laws
import proofs.«174267_j49194555408820_1_alg».proof.Proof.LibDense
import proofs.«174267_j49194555408820_1_alg».proof.Proof.LibMatmul
import proofs.«174267_j49194555408820_1_alg».proof.Proof.LibColToRow
import proofs.«174267_j49194555408820_1_alg».proof.Proof.LibColSum

noncomputable section

open scoped BigOperators

namespace Cert.Layers

open Idealize.ShloMosaic Idealize.ShloMosaic.ValueIdx Cert.Lib.Dense

variable {A K C : Nat}

/-- The vector of C entries a one-row matrix [1, C] holds. -/
def rowVec (r : (⟨2, ![1, C]⟩ : Shape).Idx → EReal) : (⟨1, ![C]⟩ : Shape).Idx → EReal :=
  fun i => r (ix2 (0 : Fin 1) (i 0 : Fin C))

theorem rowVec_apply (r : (⟨2, ![1, C]⟩ : Shape).Idx → EReal) (c : Fin C) : rowVec r (ix1 c) = r (ix2 (0 : Fin 1) c) := rfl

/-- Narrowed operands into a zero accumulator plus the row repeated down the rows: x·w + r, entry by entry. -/
theorem mxu_affine_row (x : FVec Ideal ⟨2, ![A, K]⟩ .f32) (w : FVec Ideal ⟨2, ![K, C]⟩ .f32) (r : FVec Ideal ⟨2, ![1, C]⟩ .f32)
    (hlt : FTy.bf16.bits < FTy.f32.bits)
    (hs : (⟨2, ![1, C]⟩ : Shape).ShapeCasts ⟨2, ![1, C]⟩) (hb : (⟨2, ![1, C]⟩ : Shape).Broadcasts ⟨2, ![A, C]⟩)
    (prec : Option ContractPrecision) :
    addf (matmul (DotDims.plain A K C) prec (truncf .bf16 x hlt) (truncf .bf16 w hlt) (constant ⟨2, ![A, C]⟩ .f32 0x00000000#32))
      (broadcastTo ⟨2, ![A, C]⟩ (shapeCast ⟨2, ![1, C]⟩ r hs) hb)
    = affine x w (rowVec r) := by
  funext i
  obtain ⟨a, c, rfl⟩ : ∃ (a : Fin A) (c : Fin C), i = ix2 a c := ⟨i 0, i 1, eq_ix2 i⟩
  rw [addf_apply, affine_apply, rowVec_apply]
  show FloatOps.matmul (DotDims.plain A K C) prec _ _ (constant ⟨2, ![A, C]⟩ .f32 0x00000000#32) (ix2 a c) + _ = _
  rw [Cert.Lib.Matmul.matmul_zero_apply, Cert.Lib.ColToRow.bcastRowMat_apply, shapeCast_self]
  simp only [truncf_apply]

/-- The same against a splat of the zero word: the rectified layer. -/
theorem mxu_rectified_row (x : FVec Ideal ⟨2, ![A, K]⟩ .f32) (w : FVec Ideal ⟨2, ![K, C]⟩ .f32) (r : FVec Ideal ⟨2, ![1, C]⟩ .f32)
    (hlt : FTy.bf16.bits < FTy.f32.bits)
    (hs : (⟨2, ![1, C]⟩ : Shape).ShapeCasts ⟨2, ![1, C]⟩) (hb : (⟨2, ![1, C]⟩ : Shape).Broadcasts ⟨2, ![A, C]⟩)
    (prec : Option ContractPrecision) :
    maximumf (addf (matmul (DotDims.plain A K C) prec (truncf .bf16 x hlt) (truncf .bf16 w hlt) (constant ⟨2, ![A, C]⟩ .f32 0x00000000#32))
        (broadcastTo ⟨2, ![A, C]⟩ (shapeCast ⟨2, ![1, C]⟩ r hs) hb))
      (broadcast ⟨2, ![A, C]⟩ (Scalar.ofBits (F := Ideal) .f32 0x00000000#32))
    = rectified x w (rowVec r) := by
  funext i
  rw [maximumf_apply, mxu_affine_row]
  rfl

/-- Rows of the layer's result are the layer of the same rows of x: if the block xb holds rows f(a) of x, the layer of
    xb at (a, c) is the layer of x at (f(a), c). -/
theorem rectified_rows {A' : Nat} (xb : (⟨2, ![A', K]⟩ : Shape).Idx → EReal) (x : (⟨2, ![A, K]⟩ : Shape).Idx → EReal)
    (w : (⟨2, ![K, C]⟩ : Shape).Idx → EReal) (b : (⟨1, ![C]⟩ : Shape).Idx → EReal) (f : Fin A' → Fin A)
    (hx : ∀ a k, xb (ix2 a k) = x (ix2 (f a) k)) (a : Fin A') (c : Fin C) :
    rectified xb w b (ix2 a c) = rectified x w b (ix2 (f a) c) := by
  rw [rectified_apply, rectified_apply]
  simp only [hx]

/-! ## The edge score -/

variable {E H : Nat}

/-- sigmoid((Σ_k hs[e, k]·ht[e, k])·w[e, 0]) at every entry (e, 0) of a column. -/
def score (hs ht : (⟨2, ![E, H]⟩ : Shape).Idx → EReal) (w : (⟨2, ![E, 1]⟩ : Shape).Idx → EReal) :
    (⟨2, ![E, 1]⟩ : Shape).Idx → EReal :=
  fun i => Ideal.logistic ((∑ k : Fin H, hs (ix2 (i 0 : Fin E) k) * ht (ix2 (i 0 : Fin E) k)) * w (ix2 (i 0 : Fin E) (0 : Fin 1)))

theorem score_apply (hs ht : (⟨2, ![E, H]⟩ : Shape).Idx → EReal) (w : (⟨2, ![E, 1]⟩ : Shape).Idx → EReal) (e : Fin E) (z : Fin 1) :
    score hs ht w (ix2 e z) = Ideal.logistic ((∑ k : Fin H, hs (ix2 e k) * ht (ix2 e k)) * w (ix2 e (0 : Fin 1))) := rfl

/-- The vector unit's spelling: both operands widened from bf16 (the identity), their product summed along each row into
    a zero accumulator and kept as a column, times the column w, through the sigmoid. -/
theorem vpu_score (hs ht : FVec Ideal ⟨2, ![E, H]⟩ .bf16) (w : FVec Ideal ⟨2, ![E, 1]⟩ .f32)
    (hlt : FTy.bf16.bits < FTy.f32.bits)
    (hh : (⟨2, ![E, H]⟩ : Shape).ShapeCasts ⟨2, ![E, H]⟩) (hw : (⟨2, ![E, 1]⟩ : Shape).ShapeCasts ⟨2, ![E, 1]⟩)
    (hr : (⟨2, ![E, H]⟩ : Shape).Reduces [1] ⟨1, ![E]⟩) (hφ : FKind.Formats .f32) (hacc : (0x00000000#32 : BitVec 32) = 0x00000000#32)
    (hc : (⟨1, ![E]⟩ : Shape).ShapeCasts ⟨2, ![E, 1]⟩) :
    logistic (mulf (shapeCast ⟨2, ![E, 1]⟩ (multiReduction .add [1] ⟨1, ![E]⟩
        (mulf (extf .f32 (shapeCast ⟨2, ![E, H]⟩ hs hh) hlt) (extf .f32 (shapeCast ⟨2, ![E, H]⟩ ht hh) hlt)) 0x00000000#32 hr hφ hacc) hc)
      (shapeCast ⟨2, ![E, 1]⟩ w hw))
    = score hs ht w := by
  funext i
  obtain ⟨e, z, rfl⟩ : ∃ (e : Fin E) (z : Fin 1), i = ix2 e z := ⟨i 0, i 1, eq_ix2 i⟩
  rw [score_apply]
  show Ideal.logistic (shapeCast ⟨2, ![E, 1]⟩ _ hc (ix2 e z) * shapeCast ⟨2, ![E, 1]⟩ w hw (ix2 e z)) = _
  rw [Cert.Lib.ColSum.rowSumCol_apply, shapeCast_self, shapeCast_self, shapeCast_self]
  obtain rfl : z = 0 := Subsingleton.elim _ _
  simp only [mulf_apply, extf_apply]

/-- Entry e of the score depends on row e of each operand alone: if the blocks hold rows f(e) of the arrays, the score of
    the blocks at (e, 0) is the score of the arrays at (f(e), 0). -/
theorem score_rows {E' : Nat} (hsb htb : (⟨2, ![E', H]⟩ : Shape).Idx → EReal) (wb : (⟨2, ![E', 1]⟩ : Shape).Idx → EReal)
    (hs ht : (⟨2, ![E, H]⟩ : Shape).Idx → EReal) (w : (⟨2, ![E, 1]⟩ : Shape).Idx → EReal) (f : Fin E' → Fin E)
    (h1 : ∀ e k, hsb (ix2 e k) = hs (ix2 (f e) k)) (h2 : ∀ e k, htb (ix2 e k) = ht (ix2 (f e) k))
    (h3 : ∀ e, wb (ix2 e (0 : Fin 1)) = w (ix2 (f e) (0 : Fin 1))) (e : Fin E') (z : Fin 1) :
    score hsb htb wb (ix2 e z) = score hs ht w (ix2 (f e) z) := by
  rw [score_apply, score_apply]
  simp only [h1, h2, h3]

end Cert.Layers

end
-- ==== Proof.MlpRegion.lean ====
/-
  The first region's result as one function of the arrays it finds.

  The node network runs over 25 grid points; point t loads rows 4000·t … 4000·t + 3999 of x together with the whole of
  W1, W2 and the two one-row biases, and writes the same rows of h = max(max(x·W1 + b1, 0)·W2 + b2, 0).  Row a of a block is
  row 4000·t + a of the array, a layer's row depends on that row of its input alone, and the 25 blocks of 4000 rows tile the
  100000 rows: so the array the region leaves is the two rectified layers of the whole arrays.
-/
import proofs.«174267_j49194555408820_1_alg».proof.Proof.Gen.KernelIdeal.Frame
import proofs.«174267_j49194555408820_1_alg».proof.Proof.Layers

set_option maxRecDepth 16384

noncomputable section

namespace Cert.KernelIdeal.Mlp

open Cert.KernelIdeal Cert.KernelIdeal.Gen
open Idealize.ShloMosaic Idealize.ShloMosaic.TcCoe Idealize.ShloMosaic.ValueIdx Idealize.SL.Sem
open Idealize.ShloMosaic.Pipeline (Dat Cfg Window)
open Cert.Lib.Dense Cert.Layers

variable (V : (c : Dev nD) → (b : Ref sig .tc) → Buf (Elt Ideal) ((c : Thread nD τ).loc b))

/-! ## The arrays the region finds and the blocks a point loads, at their literal types -/

abbrev xArr (c : Dev nD) : Vec Ideal S100000x256 .f32 := V c main_arg0
abbrev w1Arr (c : Dev nD) : Vec Ideal S256x64 .f32 := V c main_arg3
abbrev r1Arr (c : Dev nD) : Vec Ideal S1x64 .f32 := V c main_v0
abbrev w2Arr (c : Dev nD) : Vec Ideal S64x64 .f32 := V c main_arg5
abbrev r2Arr (c : Dev nD) : Vec Ideal S1x64 .f32 := V c main_v1

abbrev xBlk (c : Dev nD) (t : Fin cfg0.N) : Vec Ideal S4000x256 .f32 := iblk0 V c 0 t
abbrev w1Blk (c : Dev nD) (t : Fin cfg0.N) : Vec Ideal S256x64 .f32 := iblk0 V c 1 t
abbrev r1Blk (c : Dev nD) (t : Fin cfg0.N) : Vec Ideal S1x64 .f32 := iblk0 V c 2 t
abbrev w2Blk (c : Dev nD) (t : Fin cfg0.N) : Vec Ideal S64x64 .f32 := iblk0 V c 3 t
abbrev r2Blk (c : Dev nD) (t : Fin cfg0.N) : Vec Ideal S1x64 .f32 := iblk0 V c 4 t

/-- The hidden features: two rectified layers of the whole arrays. -/
def hidden (c : Dev nD) : Vec Ideal S100000x64 .bf16 :=
  rectified (rectified (xArr V c) (w1Arr V c) (rowVec (r1Arr V c))) (w2Arr V c) (rowVec (r2Arr V c))

/-! ## The body's value -/

/-- What the body stores is the two rectified layers of the blocks it loads. -/
theorem pay_eq (x0 : Vec Ideal S4000x256 .f32) (x1 : Vec Ideal S256x64 .f32) (x2 : Vec Ideal S1x64 .f32)
    (x3 : Vec Ideal S64x64 .f32) (x4 : Vec Ideal S1x64 .f32) :
    k0_pay1 x0 x1 x2 x3 x4 = rectified (rectified x0 x1 (rowVec x2)) x3 (rowVec x4) := by
  have e1 := mxu_rectified_row (A := 4000) (K := 256) (C := 64) x0 x1 x2 bitsLt_bf16_f32 shapeCasts_S1x64_S1x64
    broadcasts_S1x64_S4000x64 none
  have e2 := mxu_rectified_row (A := 4000) (K := 64) (C := 64) (rectified x0 x1 (rowVec x2)) x3 x4 bitsLt_bf16_f32
    shapeCasts_S1x64_S1x64 broadcasts_S1x64_S4000x64 none
  unfold k0_pay1
  exact (congrArg (fun z : FVec Ideal S4000x64 .f32 =>
      maximumf (addf (matmul (DotDims.plain 4000 64 64) none (truncf .bf16 z bitsLt_bf16_f32) (truncf .bf16 x3 bitsLt_bf16_f32)
          (constant S4000x64 .f32 0x00000000#32))
        (broadcastTo S4000x64 (shapeCast S1x64 x4 shapeCasts_S1x64_S1x64) broadcasts_S1x64_S4000x64))
        (broadcast S4000x64 (Scalar.ofBits (F := Ideal) .f32 0x00000000#32))) e1).trans e2

/-! ## The index maps, decided over the grid -/

theorem hz : (![0, 0] : Fin 2 → Nat) = fun _ => 0 := funext fun a => by fin_cases a <;> rfl

/-- Point t's block of x and of the result is block t along the rows; every other window is one whole block. -/
theorem idx_facts : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = t.val ∧ win0_5.index t (1 : Fin 2) = 0 :=
  (by decide +kernel : ∀ t : Fin grid0.N, _)

/-- The row of the array that row a of point t's block is. -/
def rowOf (t : Fin cfg0.N) (a : Fin 4000) : Fin 100000 := ⟨t.val * 4000 + a.val, by
  have ht : t.val < 25 := t.isLt
  have ha := a.isLt
  omega⟩

/-! ## The blocks read off the arrays -/

theorem xBlk_apply (c : Dev nD) (t : Fin cfg0.N) (a : Fin 4000) (k : Fin 256) :
    xBlk V c t (ix2 a k) = xArr V c (ix2 (rowOf t a) k) := by
  obtain ⟨e0, e1, -⟩ := idx_facts t
  show V c main_arg0 (((cfg0.win 0).blk t).view.emb (ix2 a k)) = V c main_arg0 (ix2 (rowOf t a) k)
  refine congrArg _ (funext fun d => Fin.ext ?_)
  match d with
  | ⟨0, _⟩ => show win0_0.index t (0 : Fin 2) * 4000 + 1 * a.val = t.val * 4000 + a.val; omega
  | ⟨1, _⟩ => show win0_0.index t (1 : Fin 2) * 256 + 1 * k.val = k.val; omega

theorem w1Blk_eq (c : Dev nD) (t : Fin cfg0.N) : w1Blk V c t = w1Arr V c := by
  obtain ⟨-, -, e0, e1, -⟩ := idx_facts t
  funext y
  show V c main_arg3 (((cfg0.win 1).blk t).view.emb y) = V c main_arg3 y
  refine congrArg _ (funext fun d => Fin.ext ?_)
  match d with
  | ⟨0, _⟩ => show win0_1.index t (0 : Fin 2) * 256 + 1 * (y 0).val = (y 0).val; omega
  | ⟨1, _⟩ => show win0_1.index t (1 : Fin 2) * 64 + 1 * (y 1).val = (y 1).val; omega

theorem r1Blk_eq (c : Dev nD) (t : Fin cfg0.N) : r1Blk V c t = r1Arr V c := by
  obtain ⟨-, -, -, -, e0, e1, -⟩ := idx_facts t
  funext y
  show V c main_v0 (((cfg0.win 2).blk t).view.emb y) = V c main_v0 y
  refine congrArg _ (funext fun d => Fin.ext ?_)
  match d with
  | ⟨0, _⟩ => show win0_2.index t (0 : Fin 2) * 1 + 1 * (y 0).val = (y 0).val; omega
  | ⟨1, _⟩ => show win0_2.index t (1 : Fin 2) * 64 + 1 * (y 1).val = (y 1).val; omega

theorem w2Blk_eq (c : Dev nD) (t : Fin cfg0.N) : w2Blk V c t = w2Arr V c := by
  obtain ⟨-, -, -, -, -, -, e0, e1, -⟩ := idx_facts t
  funext y
  show V c main_arg5 (((cfg0.win 3).blk t).view.emb y) = V c main_arg5 y
  refine congrArg _ (funext fun d => Fin.ext ?_)
  match d with
  | ⟨0, _⟩ => show win0_3.index t (0 : Fin 2) * 64 + 1 * (y 0).val = (y 0).val; omega
  | ⟨1, _⟩ => show win0_3.index t (1 : Fin 2) * 64 + 1 * (y 1).val = (y 1).val; omega

theorem r2Blk_eq (c : Dev nD) (t : Fin cfg0.N) : r2Blk V c t = r2Arr V c := by
  obtain ⟨-, -, -, -, -, -, -, -, e0, e1, -⟩ := idx_facts t
  funext y
  show V c main_v1 (((cfg0.win 4).blk t).view.emb y) = V c main_v1 y
  refine congrArg _ (funext fun d => Fin.ext ?_)
  match d with
  | ⟨0, _⟩ => show win0_4.index t (0 : Fin 2) * 1 + 1 * (y 0).val = (y 0).val; omega
  | ⟨1, _⟩ => show win0_4.index t (1 : Fin 2) * 64 + 1 * (y 1).val = (y 1).val; omega

/-! ## What a point writes back, and the array the region leaves -/

/-- Point t writes back rows 4000·t … of the hidden features. -/
theorem flushed_eq (c : Dev nD) (t : Fin cfg0.N) :
    (dat0 V c).flushed 5 t = ((cfg0.win 5).blk t).view.read (Elt Ideal) (hidden V c) := by
  show (cfg0.win 5).cut (grid0.coords t) ((dat0 V c).after 5 t) = _
  rw [after0_5]
  unfold out0_5
  rw [View.canon_unit_zero hz]
  simp only [View.ld_unit_zero (S := S4000x256) hz, View.ld_unit_zero (S := S256x64) hz, View.ld_unit_zero (S := S1x64) hz,
    View.ld_unit_zero (S := S64x64) hz]
  rw [pay_eq]
  funext j
  obtain ⟨a, q, rfl⟩ : ∃ (a : Fin 4000) (q : Fin 64), j = ix2 a q := ⟨j 0, j 1, eq_ix2 j⟩
  obtain ⟨-, -, -, -, -, -, -, -, -, -, e0, e1⟩ := idx_facts t
  have hemb : ((cfg0.win 5).blk t).view.emb (ix2 a q) = (ix2 (rowOf t a) q : S100000x64.Idx) := by
    funext d; apply Fin.ext
    match d with
    | ⟨0, _⟩ => show win0_5.index t (0 : Fin 2) * 4000 + 1 * a.val = t.val * 4000 + a.val; omega
    | ⟨1, _⟩ => show win0_5.index t (1 : Fin 2) * 64 + 1 * q.val = q.val; omega
  show rectified (rectified (xBlk V c t) (w1Blk V c t) (rowVec (r1Blk V c t))) (w2Blk V c t) (rowVec (r2Blk V c t)) (ix2 a q)
    = hidden V c (((cfg0.win 5).blk t).view.emb (ix2 a q))
  rw [hemb, w1Blk_eq, r1Blk_eq, w2Blk_eq, r2Blk_eq]
  exact rectified_rows _ _ _ _ (rowOf t) (fun a' k => rectified_rows _ _ _ _ (rowOf t) (xBlk_apply V c t) a' k) a q

/-- An index of the array is in point t's block iff each coordinate is in the block's range. -/
theorem mem_blk (t : Fin cfg0.N) (i : S100000x64.Idx) :
    i ∈ ((cfg0.win 5).blk t).view.set ↔ ∀ a : Fin 2, win0_5.index t a * S4000x64.size a ≤ (i a).val ∧ (i a).val < win0_5.index t a * S4000x64.size a + S4000x64.size a := by
  show i ∈ ((View.whole main_v2).slice (win0_5.rect t)).set ↔ _
  rw [View.set_slice_whole, Rect.mem_set_unit]
  exact Iff.rfl

/-- Every row is in the block of the point that holds it: row r in block r / 4000. -/
theorem cover (i : S100000x64.Idx) : ∃ t : Fin cfg0.N, (cfg0.win 5).flush t = true ∧ i ∈ ((cfg0.win 5).blk t).view.set := by
  have hi0 : (i 0).val < 100000 := (i 0).isLt
  have hi1 : (i 1).val < 64 := (i 1).isLt
  let t : Fin cfg0.N := ⟨(i 0).val / 4000, by show (i 0).val / 4000 < 25; omega⟩
  obtain ⟨-, -, -, -, -, -, -, -, -, -, e0, e1⟩ := idx_facts t
  have ht : t.val = (i 0).val / 4000 := rfl
  refine ⟨t, flush0_5 t, ?_⟩
  rw [mem_blk]
  intro a
  match a with
  | ⟨0, _⟩ => show win0_5.index t (0 : Fin 2) * 4000 ≤ (i 0).val ∧ (i 0).val < win0_5.index t (0 : Fin 2) * 4000 + 4000; omega
  | ⟨1, _⟩ => show win0_5.index t (1 : Fin 2) * 64 ≤ (i 1).val ∧ (i 1).val < win0_5.index t (1 : Fin 2) * 64 + 64; omega

/-- The array the region leaves: the hidden features of the arrays it found. -/
theorem final (c : Dev nD) : (dat0 V c).arrAt 5 cfg0.N = hidden V c :=
  (dat0 V c).arrAt_eq_of_cover 5 (hidden V c) (fun t _ => flushed_eq V c t) cover

end Cert.KernelIdeal.Mlp

end
-- ==== Proof.EdgeRegion.lean ====
/-
  The second region's result as one function of the arrays it finds.

  The edge scores run over 125 grid points; point t loads rows 12800·t … 12800·t + 12799 of the two gathered feature
  matrices and of the weight column, and writes the same rows of sigmoid((Σ_k hs[e, k]·ht[e, k])·w[e, 0]).  Row a of a block is
  row 12800·t + a of the array, a score depends on that row of each operand alone, and the 125 blocks of 12800 rows tile the
  1600000 rows: so the array the region leaves is the score of the whole arrays.
-/
import proofs.«174267_j49194555408820_1_alg».proof.Proof.Gen.KernelIdeal.Frame
import proofs.«174267_j49194555408820_1_alg».proof.Proof.Layers

set_option maxRecDepth 16384

noncomputable section

namespace Cert.KernelIdeal.Edge

open Cert.KernelIdeal Cert.KernelIdeal.Gen
open Idealize.ShloMosaic Idealize.ShloMosaic.TcCoe Idealize.ShloMosaic.ValueIdx Idealize.SL.Sem
open Idealize.ShloMosaic.Pipeline (Dat Cfg Window)
open Cert.Layers

variable (V : (c : Dev nD) → (b : Ref sig .tc) → Buf (Elt Ideal) ((c : Thread nD τ).loc b))

/-! ## The arrays the region finds and the blocks a point loads, at their literal types -/

abbrev hsArr (c : Dev nD) : Vec Ideal S1600000x64 .bf16 := V c main_v13
abbrev htArr (c : Dev nD) : Vec Ideal S1600000x64 .bf16 := V c main_v20
abbrev wArr (c : Dev nD) : Vec Ideal S1600000x1 .f32 := V c main_v21

abbrev hsBlk (c : Dev nD) (t : Fin cfg1.N) : Vec Ideal S12800x64 .bf16 := iblk1 V c 0 t
abbrev htBlk (c : Dev nD) (t : Fin cfg1.N) : Vec Ideal S12800x64 .bf16 := iblk1 V c 1 t
abbrev wBlk (c : Dev nD) (t : Fin cfg1.N) : Vec Ideal S12800x1 .f32 := iblk1 V c 2 t

/-- The scores of all the edges: the score of the whole arrays. -/
def scores (c : Dev nD) : Vec Ideal S1600000x1 .f32 := score (hsArr V c) (htArr V c) (wArr V c)

/-! ## The body's value -/

/-- What the body stores is the score of the blocks it loads. -/
theorem pay_eq (x0 x1 : Vec Ideal S12800x64 .bf16) (x2 : Vec Ideal S12800x1 .f32) : k1_pay1 x0 x1 x2 = score x0 x1 x2 := by
  unfold k1_pay1
  exact vpu_score (E := 12800) (H := 64) x0 x1 x2 bitsLt_bf16_f32 shapeCasts_S12800x64_S12800x64 shapeCasts_S12800x1_S12800x1
    reduces_S12800x64_S12800 (.inl rfl) rfl shapeCasts_S12800_S12800x1

/-! ## The index maps, decided over the grid -/

theorem hz : (![0, 0] : Fin 2 → Nat) = fun _ => 0 := funext fun a => by fin_cases a <;> rfl

/-- Every window's block at point t is block t along the rows. -/
theorem idx_facts : ∀ t : Fin cfg1.N, win1_0.index t (0 : Fin 2) = t.val ∧ win1_0.index t (1 : Fin 2) = 0
    ∧ win1_1.index t (0 : Fin 2) = t.val ∧ win1_1.index t (1 : Fin 2) = 0
    ∧ win1_2.index t (0 : Fin 2) = t.val ∧ win1_2.index t (1 : Fin 2) = 0
    ∧ win1_3.index t (0 : Fin 2) = t.val ∧ win1_3.index t (1 : Fin 2) = 0 :=
  (by decide +kernel : ∀ t : Fin grid1.N, _)

/-- The row of the array that row a of point t's block is. -/
def rowOf (t : Fin cfg1.N) (a : Fin 12800) : Fin 1600000 := ⟨t.val * 12800 + a.val, by
  have ht : t.val < 125 := t.isLt
  have ha := a.isLt
  omega⟩

/-! ## The blocks read off the arrays -/

theorem hsBlk_apply (c : Dev nD) (t : Fin cfg1.N) (a : Fin 12800) (k : Fin 64) :
    hsBlk V c t (ix2 a k) = hsArr V c (ix2 (rowOf t a) k) := by
  obtain ⟨e0, e1, -⟩ := idx_facts t
  show V c main_v13 (((cfg1.win 0).blk t).view.emb (ix2 a k)) = V c main_v13 (ix2 (rowOf t a) k)
  refine congrArg _ (funext fun d => Fin.ext ?_)
  match d with
  | ⟨0, _⟩ => show win1_0.index t (0 : Fin 2) * 12800 + 1 * a.val = t.val * 12800 + a.val; omega
  | ⟨1, _⟩ => show win1_0.index t (1 : Fin 2) * 64 + 1 * k.val = k.val; omega

theorem htBlk_apply (c : Dev nD) (t : Fin cfg1.N) (a : Fin 12800) (k : Fin 64) :
    htBlk V c t (ix2 a k) = htArr V c (ix2 (rowOf t a) k) := by
  obtain ⟨-, -, e0, e1, -⟩ := idx_facts t
  show V c main_v20 (((cfg1.win 1).blk t).view.emb (ix2 a k)) = V c main_v20 (ix2 (rowOf t a) k)
  refine congrArg _ (funext fun d => Fin.ext ?_)
  match d with
  | ⟨0, _⟩ => show win1_1.index t (0 : Fin 2) * 12800 + 1 * a.val = t.val * 12800 + a.val; omega
  | ⟨1, _⟩ => show win1_1.index t (1 : Fin 2) * 64 + 1 * k.val = k.val; omega

theorem wBlk_apply (c : Dev nD) (t : Fin cfg1.N) (a : Fin 12800) :
    wBlk V c t (ix2 a (0 : Fin 1)) = wArr V c (ix2 (rowOf t a) (0 : Fin 1)) := by
  obtain ⟨-, -, -, -, e0, e1, -⟩ := idx_facts t
  show V c main_v21 (((cfg1.win 2).blk t).view.emb (ix2 a (0 : Fin 1))) = V c main_v21 (ix2 (rowOf t a) (0 : Fin 1))
  refine congrArg _ (funext fun d => Fin.ext ?_)
  match d with
  | ⟨0, _⟩ => show win1_2.index t (0 : Fin 2) * 12800 + 1 * a.val = t.val * 12800 + a.val; omega
  | ⟨1, _⟩ => show win1_2.index t (1 : Fin 2) * 1 + 1 * 0 = 0; omega

/-! ## What a point writes back, and the array the region leaves -/

/-- Point t writes back rows 12800·t … of the scores. -/
theorem flushed_eq (c : Dev nD) (t : Fin cfg1.N) :
    (dat1 V c).flushed 3 t = ((cfg1.win 3).blk t).view.read (Elt Ideal) (scores V c) := by
  show (cfg1.win 3).cut (grid1.coords t) ((dat1 V c).after 3 t) = _
  rw [after1_3]
  unfold out1_3
  rw [View.canon_unit_zero hz]
  simp only [View.ld_unit_zero (S := S12800x64) hz, View.ld_unit_zero (S := S12800x1) hz]
  rw [pay_eq]
  funext j
  obtain ⟨a, z, rfl⟩ : ∃ (a : Fin 12800) (z : Fin 1), j = ix2 a z := ⟨j 0, j 1, eq_ix2 j⟩
  obtain ⟨-, -, -, -, -, -, e0, e1⟩ := idx_facts t
  have hemb : ((cfg1.win 3).blk t).view.emb (ix2 a z) = (ix2 (rowOf t a) z : S1600000x1.Idx) := by
    funext d; apply Fin.ext
    match d with
    | ⟨0, _⟩ => show win1_3.index t (0 : Fin 2) * 12800 + 1 * a.val = t.val * 12800 + a.val; omega
    | ⟨1, _⟩ => show win1_3.index t (1 : Fin 2) * 1 + 1 * z.val = z.val; omega
  show score (hsBlk V c t) (htBlk V c t) (wBlk V c t) (ix2 a z) = scores V c (((cfg1.win 3).blk t).view.emb (ix2 a z))
  rw [hemb]
  exact score_rows _ _ _ _ _ _ (rowOf t) (hsBlk_apply V c t) (htBlk_apply V c t) (wBlk_apply V c t) a z

/-- An index of the array is in point t's block iff each coordinate is in the block's range. -/
theorem mem_blk (t : Fin cfg1.N) (i : S1600000x1.Idx) :
    i ∈ ((cfg1.win 3).blk t).view.set ↔ ∀ a : Fin 2, win1_3.index t a * S12800x1.size a ≤ (i a).val ∧ (i a).val < win1_3.index t a * S12800x1.size a + S12800x1.size a := by
  show i ∈ ((View.whole main_v22).slice (win1_3.rect t)).set ↔ _
  rw [View.set_slice_whole, Rect.mem_set_unit]
  exact Iff.rfl

/-- Every row is in the block of the point that holds it: row r in block r / 12800. -/
theorem cover (i : S1600000x1.Idx) : ∃ t : Fin cfg1.N, (cfg1.win 3).flush t = true ∧ i ∈ ((cfg1.win 3).blk t).view.set := by
  have hi0 : (i 0).val < 1600000 := (i 0).isLt
  have hi1 : (i 1).val < 1 := (i 1).isLt
  let t : Fin cfg1.N := ⟨(i 0).val / 12800, by show (i 0).val / 12800 < 125; omega⟩
  obtain ⟨-, -, -, -, -, -, e0, e1⟩ := idx_facts t
  have ht : t.val = (i 0).val / 12800 := rfl
  refine ⟨t, flush1_3 t, ?_⟩
  rw [mem_blk]
  intro a
  match a with
  | ⟨0, _⟩ => show win1_3.index t (0 : Fin 2) * 12800 ≤ (i 0).val ∧ (i 0).val < win1_3.index t (0 : Fin 2) * 12800 + 12800; omega
  | ⟨1, _⟩ => show win1_3.index t (1 : Fin 2) * 1 ≤ (i 1).val ∧ (i 1).val < win1_3.index t (1 : Fin 2) * 1 + 1; omega

/-- The array the region leaves: the scores of the arrays it found. -/
theorem final (c : Dev nD) : (dat1 V c).arrAt 3 cfg1.N = scores V c :=
  (dat1 V c).arrAt_eq_of_cover 3 (scores V c) (fun t _ => flushed_eq V c t) cover

end Cert.KernelIdeal.Edge

end
-- ==== Proof.Columns.lean ====
/-
  Two layouts of a vector, read back.

  A vector of C entries recast as a one-row matrix [1, C] holds the vector: its row is the vector again.  A vector of E entries
  laid out as a column [E, 1], by a recast or by a broadcast along a new unit axis, holds at (e, 0) the vector's entry e; the
  edge score reads its weight column only there, so it is the same for any two columns that agree at every (e, 0).
-/
import proofs.«174267_j49194555408820_1_alg».proof.Proof.Layers
import proofs.«174267_j49194555408820_1_alg».proof.Proof.LibLayout
import proofs.«174267_j49194555408820_1_alg».proof.Proof.LibLayoutCol

noncomputable section

namespace Cert.Layers

open Idealize.ShloMosaic Idealize.ShloMosaic.ValueIdx

/-- The row of a vector recast as a one-row matrix is the vector. -/
theorem rowVec_cast {C : Nat} (b : (⟨1, ![C]⟩ : Shape).Idx → EReal) (h : (⟨1, ![C]⟩ : Shape).ShapeCasts ⟨2, ![1, C]⟩) :
    rowVec (shapeCast ⟨2, ![1, C]⟩ b h) = b := by
  funext i
  obtain ⟨c, rfl⟩ : ∃ c : Fin C, i = ix1 c := ⟨i 0, eq_ix1 i⟩
  rw [rowVec_apply]
  exact Cert.Lib.Layout.rowCast_apply b h 0 c

variable {E H : Nat}

/-- The column [E, 1] that holds a vector of E entries. -/
def colOf (v : (⟨1, ![E]⟩ : Shape).Idx → EReal) : (⟨2, ![E, 1]⟩ : Shape).Idx → EReal := fun i => v (ix1 (i 0 : Fin E))

/-- The score reads its weight column at the entries (e, 0) alone. -/
theorem score_col (hs ht : (⟨2, ![E, H]⟩ : Shape).Idx → EReal) (w : (⟨2, ![E, 1]⟩ : Shape).Idx → EReal)
    (v : (⟨1, ![E]⟩ : Shape).Idx → EReal) (hw : ∀ e : Fin E, w (ix2 e (0 : Fin 1)) = v (ix1 e)) :
    score hs ht w = score hs ht (colOf v) := by
  funext i
  obtain ⟨e, z, rfl⟩ : ∃ (e : Fin E) (z : Fin 1), i = ix2 e z := ⟨i 0, i 1, eq_ix2 i⟩
  rw [score_apply, score_apply, hw e]
  rfl

/-- A vector recast as a column is that column. -/
theorem score_castCol (hs ht : (⟨2, ![E, H]⟩ : Shape).Idx → EReal) (v : (⟨1, ![E]⟩ : Shape).Idx → EReal)
    (h : (⟨1, ![E]⟩ : Shape).ShapeCasts ⟨2, ![E, 1]⟩) :
    score hs ht (shapeCast ⟨2, ![E, 1]⟩ v h) = score hs ht (colOf v) :=
  score_col hs ht _ v fun e => Cert.Lib.LayoutCol.colCast_apply v h e 0

end Cert.Layers

end
-- ==== Proof.KernelValue.lean ====
/-
  The kernel program's result as one function of its arguments.

  Before the first region the host recasts the two biases as one-row matrices; the region leaves the hidden features
  h = max(max(x·W1 + b1, 0)·W2 + b2, 0) of the arguments.  Between the regions the host takes the two rows of the edge list, adds
  the number of nodes to a negative entry, gathers the rows h[s] and h[t], and recasts the weights as a column; the second
  region leaves the edge score of those three arrays.  Nothing else writes these buffers, so each is read back through the
  host operations to the launch contents.
-/
import proofs.«174267_j49194555408820_1_alg».proof.Proof.KernelRun
import proofs.«174267_j49194555408820_1_alg».proof.Proof.MlpRegion
import proofs.«174267_j49194555408820_1_alg».proof.Proof.EdgeRegion
import proofs.«174267_j49194555408820_1_alg».proof.Proof.Columns
import Idealize.ShloMosaic.Lib.StableHlo.Run

set_option maxRecDepth 16384

noncomputable section

namespace Cert.KernelIdeal.Result

open Cert.KernelIdeal Cert.KernelIdeal.Gen
open Idealize.ShloMosaic Idealize.ShloMosaic.TcCoe Idealize.ShloMosaic.ValueIdx Idealize.SL.Sem Idealize.ShloMosaic.StableHlo
open Cert.Lib.Dense Cert.Layers

/-! ## The host's index arithmetic and the result, as functions of the arguments -/

/-- Row r = 0 of the edge list as a vector: the source nodes. -/
def srcIds (x1 : (⟨S2x1600000, .i32⟩ : BufTy).Contents (Elt Ideal)) : (⟨S1600000, .i32⟩ : BufTy).Contents (Elt Ideal) :=
  shapeCast S1600000 (extractStridedSlice S1x1600000 ![0, 0] x1 slices_S2x1600000_S1x1600000_0_0) shapeCasts_S1x1600000_S1600000

/-- Row r = 1 of the edge list as a vector: the target nodes. -/
def dstIds (x1 : (⟨S2x1600000, .i32⟩ : BufTy).Contents (Elt Ideal)) : (⟨S1600000, .i32⟩ : BufTy).Contents (Elt Ideal) :=
  shapeCast S1600000 (extractStridedSlice S1x1600000 ![1, 0] x1 slices_S2x1600000_S1x1600000_1_0) shapeCasts_S1x1600000_S1600000

/-- A node id with a negative one counted from the end, as the one-column index array the gather takes. -/
def wrapped (s : (⟨S1600000, .i32⟩ : BufTy).Contents (Elt Ideal)) : (⟨S1600000x1, .i32⟩ : BufTy).Contents (Elt Ideal) :=
  broadcastInDim S1600000x1 ![0] bcast_S1600000_S1600000x1_0
    (select (cmpi .slt s (broadcastInDim S1600000 ![] bcast_S_S1600000 (constantI S_ 32 0#32)))
      (addi s (broadcastInDim S1600000 ![] bcast_S_S1600000 (constantI S_ 32 100000#32))) s)

/-- The rows of the feature table at the given ids. -/
def rowsAt (h : (⟨S100000x64, .bf16⟩ : BufTy).Contents (Elt Ideal)) (ids : (⟨S1600000x1, .i32⟩ : BufTy).Contents (Elt Ideal)) :
    (⟨S1600000x64, .bf16⟩ : BufTy).Contents (Elt Ideal) :=
  Host.gather gather_S100000x64_S1600000x1_S1600000x64_1_0_n_n_0_1_164 h ids

/-- The program's result: the score of the gathered rows of the two rectified layers, weighted. -/
def value (x0 : (⟨S100000x256, .f32⟩ : BufTy).Contents (Elt Ideal)) (x1 : (⟨S2x1600000, .i32⟩ : BufTy).Contents (Elt Ideal))
    (x2 : (⟨S1600000, .f32⟩ : BufTy).Contents (Elt Ideal)) (x3 : (⟨S256x64, .f32⟩ : BufTy).Contents (Elt Ideal))
    (x4 : (⟨S64, .f32⟩ : BufTy).Contents (Elt Ideal)) (x5 : (⟨S64x64, .f32⟩ : BufTy).Contents (Elt Ideal))
    (x6 : (⟨S64, .f32⟩ : BufTy).Contents (Elt Ideal)) : (⟨S1600000x1, .f32⟩ : BufTy).Contents (Elt Ideal) :=
  score (rowsAt (rectified (rectified x0 x3 x4) x5 x6) (wrapped (srcIds x1)))
    (rowsAt (rectified (rectified x0 x3 x4) x5 x6) (wrapped (dstIds x1))) (colOf x2)

variable (m : (ℓ : Loc nD τ sig) → Buf (Elt Ideal) ℓ) (ρ : Dev nD → PrngReg)

/-! ## The first host stretch -/

theorem V1_arg0 (c : Dev nD) : V1 m ρ c main_arg0 = m ((c : Thread nD τ).loc main_arg0) := by
  show StableHlo.after hostOps0 (W0 m ρ c) (Proc.devRef .tc main_arg0) = _
  after_results

theorem V1_arg3 (c : Dev nD) : V1 m ρ c main_arg3 = m ((c : Thread nD τ).loc main_arg3) := by
  show StableHlo.after hostOps0 (W0 m ρ c) (Proc.devRef .tc main_arg3) = _
  after_results

theorem V1_arg5 (c : Dev nD) : V1 m ρ c main_arg5 = m ((c : Thread nD τ).loc main_arg5) := by
  show StableHlo.after hostOps0 (W0 m ρ c) (Proc.devRef .tc main_arg5) = _
  after_results

theorem V1_v0 (c : Dev nD) :
    V1 m ρ c main_v0 = shapeCast S1x64 (m ((c : Thread nD τ).loc main_arg4)) shapeCasts_S64_S1x64 := by
  show StableHlo.after hostOps0 (W0 m ρ c) (Proc.devRef .tc main_v0) = _
  after_results; rfl

theorem V1_v1 (c : Dev nD) :
    V1 m ρ c main_v1 = shapeCast S1x64 (m ((c : Thread nD τ).loc main_arg6)) shapeCasts_S64_S1x64 := by
  show StableHlo.after hostOps0 (W0 m ρ c) (Proc.devRef .tc main_v1) = _
  after_results; rfl

/-- The first region leaves the two rectified layers of the arguments. -/
theorem hidden_eq (c : Dev nD) :
    Mlp.hidden (V1 m ρ) c = rectified (rectified (m ((c : Thread nD τ).loc main_arg0)) (m ((c : Thread nD τ).loc main_arg3))
      (m ((c : Thread nD τ).loc main_arg4))) (m ((c : Thread nD τ).loc main_arg5)) (m ((c : Thread nD τ).loc main_arg6)) := by
  show rectified (rectified (V1 m ρ c main_arg0) (V1 m ρ c main_arg3) (rowVec (V1 m ρ c main_v0))) (V1 m ρ c main_arg5)
    (rowVec (V1 m ρ c main_v1)) = _
  rw [V1_arg0, V1_arg3, V1_arg5, V1_v0, V1_v1, rowVec_cast, rowVec_cast]

/-! ## Between the regions -/

theorem W2_v2 (c : Dev nD) : W2 m ρ c (Proc.devRef .tc main_v2) = Mlp.hidden (V1 m ρ) c :=
  (W2_arr m ρ c 5).trans (Mlp.final (V1 m ρ) c)

theorem W2_arg1 (c : Dev nD) : W2 m ρ c (Proc.devRef .tc main_arg1) = m ((c : Thread nD τ).loc main_arg1) := by
  refine (W2_of_ne m ρ c main_arg1 (by decide)).trans ?_
  show StableHlo.after hostOps0 (W0 m ρ c) (Proc.devRef .tc main_arg1) = _
  after_results

theorem W2_arg2 (c : Dev nD) : W2 m ρ c (Proc.devRef .tc main_arg2) = m ((c : Thread nD τ).loc main_arg2) := by
  refine (W2_of_ne m ρ c main_arg2 (by decide)).trans ?_
  show StableHlo.after hostOps0 (W0 m ρ c) (Proc.devRef .tc main_arg2) = _
  after_results

theorem V3_v13 (c : Dev nD) :
    V3 m ρ c main_v13 = rowsAt (W2 m ρ c (Proc.devRef .tc main_v2)) (wrapped (srcIds (W2 m ρ c (Proc.devRef .tc main_arg1)))) := by
  show StableHlo.after hostOps1 (W2 m ρ c) (Proc.devRef .tc main_v13) = _
  after_results; rfl

theorem V3_v20 (c : Dev nD) :
    V3 m ρ c main_v20 = rowsAt (W2 m ρ c (Proc.devRef .tc main_v2)) (wrapped (dstIds (W2 m ρ c (Proc.devRef .tc main_arg1)))) := by
  show StableHlo.after hostOps1 (W2 m ρ c) (Proc.devRef .tc main_v20) = _
  after_results; rfl

theorem V3_v21 (c : Dev nD) :
    V3 m ρ c main_v21 = shapeCast S1600000x1 (W2 m ρ c (Proc.devRef .tc main_arg2)) shapeCasts_S1600000_S1600000x1 := by
  show StableHlo.after hostOps1 (W2 m ρ c) (Proc.devRef .tc main_v21) = _
  after_results; rfl

/-! ## The result -/

/-- The result array after the run is the program's value of the launch contents of the arguments. -/
theorem result_eq (c : Dev nD) :
    W4 m ρ c (Proc.devRef .tc main_v22) = value (m ((c : Thread nD τ).loc main_arg0)) (m ((c : Thread nD τ).loc main_arg1))
      (m ((c : Thread nD τ).loc main_arg2)) (m ((c : Thread nD τ).loc main_arg3)) (m ((c : Thread nD τ).loc main_arg4))
      (m ((c : Thread nD τ).loc main_arg5)) (m ((c : Thread nD τ).loc main_arg6)) := by
  refine (W4_arr m ρ c 3).trans ((Edge.final (V3 m ρ) c).trans ?_)
  show score (V3 m ρ c main_v13) (V3 m ρ c main_v20) (V3 m ρ c main_v21) = _
  rw [V3_v13, V3_v20, V3_v21, W2_v2, W2_arg1, W2_arg2, hidden_eq, score_castCol]
  rfl

/-- The run of the kernel program with its result named. -/
theorem run : θ_run defs (onTc (τ := τ) (main (F := Ideal))) ⟨m, fun _ => 0, ρ⟩ (fun r => ∀ c : Dev nD,
      r.2.mem ((c.tc : Thread nD τ).loc main_v22) = value (m ((c : Thread nD τ).loc main_arg0)) (m ((c : Thread nD τ).loc main_arg1))
        (m ((c : Thread nD τ).loc main_arg2)) (m ((c : Thread nD τ).loc main_arg3)) (m ((c : Thread nD τ).loc main_arg4))
        (m ((c : Thread nD τ).loc main_arg5)) (m ((c : Thread nD τ).loc main_arg6))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) :=
  (θ_run defs _ _).mono (fun r h c => ⟨(h c).1.trans (result_eq m ρ c), (h c).2⟩) (run_result m ρ)

end Cert.KernelIdeal.Result

end
-- ==== Proof.RefValue.lean ====
/-
  The reference's result as the same two functions.

  The reference computes h = max(max(x·W1 + b1, 0)·W2 + b2, 0) with two dot_generals, each bias through two broadcasts and each
  rectifier against a broadcast zero: the two rectified layers of (x, W1, b1, W2, b2).  It gathers the rows h[s], h[t], multiplies
  them, sums each row from a zero, broadcasts the sums and the weights to columns, multiplies, and applies 1 / (1 + exp(-·)),
  which on the extended reals is the sigmoid: the edge score of the two gathered matrices and the weight column.
-/
import proofs.«174267_j49194555408820_1_alg».proof.Proof.Gen.ReferenceIdeal.Run
import proofs.«174267_j49194555408820_1_alg».proof.Proof.Gen.ReferenceIdeal.Read
import proofs.«174267_j49194555408820_1_alg».proof.Proof.Layers

noncomputable section

open scoped BigOperators

namespace Cert.ReferenceIdeal.RefValue

open Cert.ReferenceIdeal Cert.ReferenceIdeal.Gen Cert.ReferenceIdeal.Read
open Idealize.ShloMosaic Idealize.ShloMosaic.TcCoe Idealize.ShloMosaic.ValueIdx Idealize.SL.Sem
open Cert.Lib.Dense Cert.Layers

/-- The word of 1.0 is the real number one. -/
theorem one_word : Ideal.ofBits .f32 0x3F800000#32 = 1 := by
  simp [Ideal.ofBits, Ideal.ieee, -EReal.coe_mul]; norm_num

/-- The hidden features are the two rectified layers of the arguments. -/
theorem hidden_eq (x0 : (⟨S100000x256, .f32⟩ : BufTy).Contents (Elt Ideal)) (x3 : (⟨S256x64, .f32⟩ : BufTy).Contents (Elt Ideal))
    (x4 : (⟨S64, .f32⟩ : BufTy).Contents (Elt Ideal)) (x5 : (⟨S64x64, .f32⟩ : BufTy).Contents (Elt Ideal))
    (x6 : (⟨S64, .f32⟩ : BufTy).Contents (Elt Ideal)) :
    val_main_v9 (F := Ideal) x0 x3 x4 x5 x6 = rectified (rectified x0 x3 x4) x5 x6 := by
  have e0 : val_main_v4 (F := Ideal) x0 x3 x4 = rectified x0 x3 x4 := by
    unfold val_main_v4 val_main_v3 val_main_v2 val_main_v1 val_main_v0 val_main_call0_v0 val_main_call0_cst
    exact host_rectified (A := 100000) (K := 256) (C := 64) x0 x3 x4 bcast_S64_S1x64_1 bcast_S1x64_S100000x64_0_1
      bcast_S_S100000x64 none
  unfold val_main_v9 val_main_v8 val_main_v7 val_main_v6 val_main_v5 val_main_call1_v0 val_main_call1_cst
  rw [e0]
  exact host_rectified (A := 100000) (K := 64) (C := 64) (rectified x0 x3 x4) x5 x6 bcast_S64_S1x64_1
    bcast_S1x64_S100000x64_0_1 bcast_S_S100000x64 none

/-- The result is the edge score of the two gathered matrices and the weights as a column. -/
theorem result_eq (x0 : (⟨S100000x256, .f32⟩ : BufTy).Contents (Elt Ideal)) (x1 : (⟨S2x1600000, .i32⟩ : BufTy).Contents (Elt Ideal))
    (x2 : (⟨S1600000, .f32⟩ : BufTy).Contents (Elt Ideal)) (x3 : (⟨S256x64, .f32⟩ : BufTy).Contents (Elt Ideal))
    (x4 : (⟨S64, .f32⟩ : BufTy).Contents (Elt Ideal)) (x5 : (⟨S64x64, .f32⟩ : BufTy).Contents (Elt Ideal))
    (x6 : (⟨S64, .f32⟩ : BufTy).Contents (Elt Ideal)) :
    val_main_v38 (F := Ideal) x0 x1 x2 x3 x4 x5 x6
      = score (val_main_v20 (F := Ideal) x0 x1 x3 x4 x5 x6) (val_main_v27 (F := Ideal) x0 x1 x3 x4 x5 x6)
          (val_main_v31 (F := Ideal) x2) := by
  funext i
  obtain ⟨e, z, rfl⟩ : ∃ (e : Fin 1600000) (z : Fin 1), i = ix2 e z := ⟨i 0, i 1, eq_ix2 i⟩
  obtain rfl : z = 0 := Subsingleton.elim _ _
  have hk : ∀ k : Fin 64, idx_main_v29 (idx_main_v30 (ix2 e (0 : Fin 1))) k = (ix2 e k : S1600000x64.Idx) := fun k =>
    funext fun a => Fin.ext (by match a with | ⟨0, _⟩ => rfl | ⟨1, _⟩ => rfl)
  rw [score_apply, val_main_v38_apply, val_main_v37_apply, val_main_v36_apply, val_main_v35_apply, val_main_v34_apply,
    val_main_v33_apply, val_main_v32_apply, val_main_v30_apply, val_main_v29_apply]
  simp only [val_main_v28_apply, val_main_cst_apply, val_main_cst_3_apply, val_main_cst_4_apply, hk, Ideal.ofBits_def,
    Ideal.mulf_def, Ideal.addf_def, Ideal.hostDivf_def, Ideal.hostUnary_exp_def, Ideal.hostNegf_def, Ideal.negf_def,
    Ideal.ofBits_zero_f32, one_word, zero_add]
  rfl

end Cert.ReferenceIdeal.RefValue

end
-- ==== Proof.lean ====
/-
  Edge scores of a two-layer node network: the kernel program and the reference compute one function.

  Both programs take node features x : [100000, 256], an edge list [2, 1600000], edge weights [1600000], and the weights and
  biases of two dense layers.  The hidden features are h = max(max(x·W1 + b1, 0)·W2 + b2, 0); for each edge (s, t), with a negative
  node id counted from the end, the result is sigmoid((Σ_k h[s, k]·h[t, k])·weight).

  The kernel program computes h in a first region of 25 row blocks (matrix products of bf16-narrowed operands into a zero
  accumulator; narrowing is the identity on the extended reals), gathers the rows on the host, and computes the scores in a
  second region of 125 row blocks with the sigmoid as one operation.  The reference does it all on the host, the sigmoid as
  1 / (1 + exp(-·)).  On the extended reals a matrix product into zero is the sum Σ_k of products, a row sum from a zero
  accumulator is the sum of the row, and the sigmoid is that quotient at every extended real, so the two results agree entry by
  entry; no property of the inputs is used.  The same gather of the same index arithmetic appears on both sides and is never
  opened.

  The three frames are the generated ones (the reference's is its generated run with the result dropped); the idealization
  rewrote no operation.
-/
import proofs.«174267_j49194555408820_1_alg».proof.Defs
import proofs.«174267_j49194555408820_1_alg».proof.Proof.Gen.Kernel
import proofs.«174267_j49194555408820_1_alg».proof.Proof.Gen.Kernel.Skeleton
import proofs.«174267_j49194555408820_1_alg».proof.Proof.Gen.Kernel.Launch
import proofs.«174267_j49194555408820_1_alg».proof.Proof.Gen.Kernel.Points
import proofs.«174267_j49194555408820_1_alg».proof.Proof.Gen.Kernel.Frame
import proofs.«174267_j49194555408820_1_alg».proof.Proof.Gen.KernelIdeal
import proofs.«174267_j49194555408820_1_alg».proof.Proof.Gen.KernelIdeal.Skeleton
import proofs.«174267_j49194555408820_1_alg».proof.Proof.Gen.KernelIdeal.Launch
import proofs.«174267_j49194555408820_1_alg».proof.Proof.Gen.KernelIdeal.Points
import proofs.«174267_j49194555408820_1_alg».proof.Proof.Gen.KernelIdeal.Frame
import proofs.«174267_j49194555408820_1_alg».proof.Proof.Gen.ReferenceIdeal
import proofs.«174267_j49194555408820_1_alg».proof.Proof.Gen.ReferenceIdeal.Run
import proofs.«174267_j49194555408820_1_alg».proof.Proof.Gen.ReferenceIdeal.Read
import proofs.«174267_j49194555408820_1_alg».proof.Proof.Gen.Pre_finite_inputs
import proofs.«174267_j49194555408820_1_alg».proof.Proof.KernelValue
import proofs.«174267_j49194555408820_1_alg».proof.Proof.RefValue
import Idealize.ShloMosaic.Adequacy
import Idealize.ShloMosaic.Init

noncomputable section

namespace Cert.Proof

open Idealize.ShloMosaic Idealize.ShloMosaic.TcCoe Idealize.ShloMosaic.ValueIdx Idealize.SL.Sem
open Cert.Lib.Dense Cert.Layers

/-! ## The two programs' index arithmetic is one -/

/-- The source ids, wrapped, as the reference spells them. -/
theorem src_eq (x1 : (⟨Cert.ReferenceIdeal.S2x1600000, .i32⟩ : BufTy).Contents (Elt Ideal)) :
    Cert.ReferenceIdeal.Read.val_main_v19 (F := Ideal) x1
      = Cert.KernelIdeal.Result.wrapped (Cert.KernelIdeal.Result.srcIds x1) := rfl

/-- The target ids, wrapped, as the reference spells them. -/
theorem dst_eq (x1 : (⟨Cert.ReferenceIdeal.S2x1600000, .i32⟩ : BufTy).Contents (Elt Ideal)) :
    Cert.ReferenceIdeal.Read.val_main_v26 (F := Ideal) x1
      = Cert.KernelIdeal.Result.wrapped (Cert.KernelIdeal.Result.dstIds x1) := rfl

/-- The reference's weight column holds the weights. -/
theorem weights_col (x2 : (⟨Cert.ReferenceIdeal.S1600000, .f32⟩ : BufTy).Contents (Elt Ideal)) (e : Fin 1600000) :
    Cert.ReferenceIdeal.Read.val_main_v31 (F := Ideal) x2 (ix2 e (0 : Fin 1)) = x2 (ix1 e) :=
  (Cert.ReferenceIdeal.Read.val_main_v31_apply x2 (ix2 e (0 : Fin 1))).trans
    (congrArg x2 (funext fun a => Fin.ext (by match a with | ⟨0, _⟩ => rfl)))

/-- The reference's result is the kernel program's value of the same arguments. -/
theorem result_eq (x0 : (⟨Cert.ReferenceIdeal.S100000x256, .f32⟩ : BufTy).Contents (Elt Ideal))
    (x1 : (⟨Cert.ReferenceIdeal.S2x1600000, .i32⟩ : BufTy).Contents (Elt Ideal))
    (x2 : (⟨Cert.ReferenceIdeal.S1600000, .f32⟩ : BufTy).Contents (Elt Ideal))
    (x3 : (⟨Cert.ReferenceIdeal.S256x64, .f32⟩ : BufTy).Contents (Elt Ideal))
    (x4 : (⟨Cert.ReferenceIdeal.S64, .f32⟩ : BufTy).Contents (Elt Ideal))
    (x5 : (⟨Cert.ReferenceIdeal.S64x64, .f32⟩ : BufTy).Contents (Elt Ideal))
    (x6 : (⟨Cert.ReferenceIdeal.S64, .f32⟩ : BufTy).Contents (Elt Ideal)) :
    Cert.ReferenceIdeal.Read.val_main_v38 (F := Ideal) x0 x1 x2 x3 x4 x5 x6
      = Cert.KernelIdeal.Result.value x0 x1 x2 x3 x4 x5 x6 := by
  rw [Cert.ReferenceIdeal.RefValue.result_eq, score_col _ _ _ x2 (weights_col x2)]
  unfold Cert.ReferenceIdeal.Read.val_main_v20 Cert.ReferenceIdeal.Read.val_main_v27
  rw [Cert.ReferenceIdeal.RefValue.hidden_eq, src_eq, dst_eq]
  rfl

/-! ## The claims -/

theorem frame_k : Cert.frame_Kernel := fun m ρ _ => Cert.Kernel.Gen.frame m ρ

theorem frame_ki : Cert.frame_KernelIdeal := fun m ρ _ => Cert.KernelIdeal.Gen.frame m ρ

theorem frame_ri : Cert.frame_ReferenceIdeal := fun m ρ _ =>
  (θ_run Cert.ReferenceIdeal.defs _ _).mono (fun _ h c => (h c).2) (Cert.ReferenceIdeal.Value.run (F := Ideal) m ρ)

/-- From memories that agree on the arguments both runs end with the result array at the one value. -/
theorem algebraic : Cert.algebraic_KernelIdeal_ReferenceIdeal := by
  intro m ρ m' ρ' _ hagree
  refine ⟨_, Cert.KernelIdeal.Result.run m ρ, ?_⟩
  refine (θ_run Cert.ReferenceIdeal.defs _ _).mono (fun _ h c => ⟨(h c).1.trans ?_, (h c).2⟩)
    (Cert.ReferenceIdeal.Value.run (F := Ideal) m' ρ')
  obtain ⟨h0, h1, h2, h3, h4, h5, h6⟩ := hagree c
  refine (Cert.ReferenceIdeal.Read.val_main_v38_eq (F := Ideal) _ _ _ _ _ _ _).trans ?_
  rw [h0, h1, h2, h3, h4, h5, h6]
  exact result_eq _ _ _ _ _ _ _

theorem claim : Cert.Claim := ⟨Cert.Kernel.Gen.facts, Cert.KernelIdeal.Gen.facts, Cert.ReferenceIdeal.Gen.facts,
  Cert.Pre_finite_inputs.Gen.facts, frame_k, frame_ki, frame_ri, trivial, algebraic⟩

end Cert.Proof

end
